-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x1024x3 : Shape := ⟨3, ![256, 1024, 3]⟩
abbrev S256x3 : Shape := ⟨2, ![256, 3]⟩
abbrev S256x8 : Shape := ⟨2, ![256, 8]⟩
abbrev S256x4x32 : Shape := ⟨3, ![256, 4, 32]⟩
abbrev S256x32 : Shape := ⟨2, ![256, 32]⟩
abbrev S8x32 : Shape := ⟨2, ![8, 32]⟩
abbrev S32x16 : Shape := ⟨2, ![32, 16]⟩
abbrev S16x256 : Shape := ⟨2, ![16, 256]⟩
abbrev S4x256 : Shape := ⟨2, ![4, 256]⟩
abbrev S256 : Shape := ⟨1, ![256]⟩
abbrev S256x256 : Shape := ⟨2, ![256, 256]⟩
abbrev S_ : Shape := ⟨0, ![]⟩

class Facts : Prop where
  bcast_S_S256x1024x3 : S_.BroadcastsInDim S256x1024x3 (![] : Fin 0 → Fin S256x1024x3.rank)
  reducesTo_S256x1024x3_S_d0_1_2 : S256x1024x3.ReducesTo [0, 1, 2] S_
  h_S_ : 0 < S_.numel
  bcast_S_S256x3 : S_.BroadcastsInDim S256x3 (![] : Fin 0 → Fin S256x3.rank)
  reducesTo_S256x3_S_d0_1 : S256x3.ReducesTo [0, 1] S_
  bcast_S_S256x8 : S_.BroadcastsInDim S256x8 (![] : Fin 0 → Fin S256x8.rank)
  reducesTo_S256x8_S_d0_1 : S256x8.ReducesTo [0, 1] S_
  bcast_S_S256x4x32 : S_.BroadcastsInDim S256x4x32 (![] : Fin 0 → Fin S256x4x32.rank)
  reducesTo_S256x4x32_S_d0_1_2 : S256x4x32.ReducesTo [0, 1, 2] S_
  bcast_S_S256x32 : S_.BroadcastsInDim S256x32 (![] : Fin 0 → Fin S256x32.rank)
  reducesTo_S256x32_S_d0_1 : S256x32.ReducesTo [0, 1] S_
  bcast_S_S8x32 : S_.BroadcastsInDim S8x32 (![] : Fin 0 → Fin S8x32.rank)
  reducesTo_S8x32_S_d0_1 : S8x32.ReducesTo [0, 1] S_
  bcast_S_S32x16 : S_.BroadcastsInDim S32x16 (![] : Fin 0 → Fin S32x16.rank)
  reducesTo_S32x16_S_d0_1 : S32x16.ReducesTo [0, 1] S_
  bcast_S_S16x256 : S_.BroadcastsInDim S16x256 (![] : Fin 0 → Fin S16x256.rank)
  reducesTo_S16x256_S_d0_1 : S16x256.ReducesTo [0, 1] S_
  bcast_S_S4x256 : S_.BroadcastsInDim S4x256 (![] : Fin 0 → Fin S4x256.rank)
  reducesTo_S4x256_S_d0_1 : S4x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part3 {F : FTy → Type} [FloatOps F] (main_v48 : IVec S_ 1) (main_v49 : FVec F S256x256 .f32) (main_v50 : FVec F S256x256 .f32) : IVec S_ 1 :=
  let main_v51 : IVec S256x256 1 := cmpf .olt main_v49 main_v50
  let main_c_19 : IVec S_ 1 := constantI S_ 1 1#1
  let main_v52 : IVec S_ 1 := (fun x v => Host.reduce IntOp.andi x v reducesTo_S256x256_S_d0_1 h_S_) main_v51 main_c_19
  let main_v53 : IVec S_ 1 := andi main_v48 main_v52
  main_v53

def fn_part2 {F : FTy → Type} [FloatOps F] (main_arg7 : FVec F S16x256 .f32) (main_arg8 : FVec F S4x256 .f32) (main_arg9 : FVec F S256 .f32) (main_arg10 : FVec F S256x256 .f32) (main_v33 : IVec S_ 1) : IVec S_ 1 :=
  let main_v34 : FVec F S16x256 .f32 := Host.absf main_arg7
  let main_cst_12 : FVec F S_ .f32 := constant S_ .f32 0x7F800000#32
  let main_v35 : FVec F S16x256 .f32 := broadcastInDim S16x256 ![] bcast_S_S16x256 main_cst_12
  let main_v36 : IVec S16x256 1 := cmpf .olt main_v34 main_v35
  let main_c_13 : IVec S_ 1 := constantI S_ 1 1#1
  let main_v37 : IVec S_ 1 := (fun x v => Host.reduce IntOp.andi x v reducesTo_S16x256_S_d0_1 h_S_) main_v36 main_c_13
  let main_v38 : IVec S_ 1 := andi main_v33 main_v37
  let main_v39 : FVec F S4x256 .f32 := Host.absf main_arg8
  let main_cst_14 : FVec F S_ .f32 := constant S_ .f32 0x7F800000#32
  let main_v40 : FVec F S4x256 .f32 := broadcastInDim S4x256 ![] bcast_S_S4x256 main_cst_14
  let main_v41 : IVec S4x256 1 := cmpf .olt main_v39 main_v40
  let main_c_15 : IVec S_ 1 := constantI S_ 1 1#1
  let main_v42 : IVec S_ 1 := (fun x v => Host.reduce IntOp.andi x v reducesTo_S4x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x256 .f32 := Host.absf main_arg10
  let main_cst_18 : FVec F S_ .f32 := constant S_ .f32 0x7F800000#32
  let main_v50 : FVec F S256x256 .f32 := broadcastInDim S256x256 ![] bcast_S_S256x256 main_cst_18
  fn_part3 (F := F) main_v48 main_v49 main_v50

def fn_part1 {F : FTy → Type} [FloatOps F] (main_arg4 : FVec F S256x32 .f32) (main_arg5 : FVec F S8x32 .f32) (main_arg6 : FVec F S32x16 .f32) (main_arg7 : FVec F S16x256 .f32) (main_arg8 : FVec F S4x256 .f32) (main_arg9 : FVec F S256 .f32) (main_arg10 : FVec F S256x256 .f32) (main_v13 : IVec S_ 1) (main_v16 : IVec S256x4x32 1) : IVec S_ 1 :=
  let main_c_5 : IVec S_ 1 := constantI S_ 1 1#1
  let main_v17 : IVec S_ 1 := (fun x v => Host.reduce IntOp.andi x v reducesTo_S256x4x32_S_d0_1_2 h_S_) main_v16 main_c_5
  let main_v18 : IVec S_ 1 := andi main_v13 main_v17
  let main_v19 : FVec F S256x32 .f32 := Host.absf main_arg4
  let main_cst_6 : FVec F S_ .f32 := constant S_ .f32 0x7F800000#32
  let main_v20 : FVec F S256x32 .f32 := broadcastInDim S256x32 ![] bcast_S_S256x32 main_cst_6
  let main_v21 : IVec S256x32 1 := cmpf .olt main_v19 main_v20
  let main_c_7 : IVec S_ 1 := constantI S_ 1 1#1
  let main_v22 : IVec S_ 1 := (fun x v => Host.reduce IntOp.andi x v reducesTo_S256x32_S_d0_1 h_S_) main_v21 main_c_7
  let main_v23 : IVec S_ 1 := andi main_v18 main_v22
  let main_v24 : FVec F S8x32 .f32 := Host.absf main_arg5
  let main_cst_8 : FVec F S_ .f32 := constant S_ .f32 0x7F800000#32
  let main_v25 : FVec F S8x32 .f32 := broadcastInDim S8x32 ![] bcast_S_S8x32 main_cst_8
  let main_v26 : IVec S8x32 1 := cmpf .olt main_v24 main_v25
  let main_c_9 : IVec S_ 1 := constantI S_ 1 1#1
  let main_v27 : IVec S_ 1 := (fun x v => Host.reduce IntOp.andi x v reducesTo_S8x32_S_d0_1 h_S_) main_v26 main_c_9
  let main_v28 : IVec S_ 1 := andi main_v23 main_v27
  let main_v29 : FVec F S32x16 .f32 := Host.absf main_arg6
  let main_cst_10 : FVec F S_ .f32 := constant S_ .f32 0x7F800000#32
  let main_v30 : FVec F S32x16 .f32 := broadcastInDim S32x16 ![] bcast_S_S32x16 main_cst_10
  let main_v31 : IVec S32x16 1 := cmpf .olt main_v29 main_v30
  let main_c_11 : IVec S_ 1 := constantI S_ 1 1#1
  let main_v32 : IVec S_ 1 := (fun x v => Host.reduce IntOp.andi x v reducesTo_S32x16_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S256x1024x3 .f32) (main_arg1 : FVec F S256x3 .f32) (main_arg2 : FVec F S256x8 .f32) (main_arg3 : FVec F S256x4x32 .f32) (main_arg4 : FVec F S256x32 .f32) (main_arg5 : FVec F S8x32 .f32) (main_arg6 : FVec F S32x16 .f32) (main_arg7 : FVec F S16x256 .f32) (main_arg8 : FVec F S4x256 .f32) (main_arg9 : FVec F S256 .f32) (main_arg10 : FVec F S256x256 .f32) : IVec S_ 1 :=
  let main_v0 : FVec F S256x1024x3 .f32 := Host.absf main_arg0
  let main_cst : FVec F S_ .f32 := constant S_ .f32 0x7F800000#32
  let main_v1 : FVec F S256x1024x3 .f32 := broadcastInDim S256x1024x3 ![] bcast_S_S256x1024x3 main_cst
  let main_v2 : IVec S256x1024x3 1 := cmpf .olt main_v0 main_v1
  let main_c : IVec S_ 1 := constantI S_ 1 1#1
  let main_v3 : IVec S_ 1 := (fun x v => Host.reduce IntOp.andi x v reducesTo_S256x1024x3_S_d0_1_2 h_S_) main_v2 main_c
  let main_v4 : FVec F S256x3 .f32 := Host.absf main_arg1
  let main_cst_0 : FVec F S_ .f32 := constant S_ .f32 0x7F800000#32
  let main_v5 : FVec F S256x3 .f32 := broadcastInDim S256x3 ![] bcast_S_S256x3 main_cst_0
  let main_v6 : IVec S256x3 1 := cmpf .olt main_v4 main_v5
  let main_c_1 : IVec S_ 1 := constantI S_ 1 1#1
  let main_v7 : IVec S_ 1 := (fun x v => Host.reduce IntOp.andi x v reducesTo_S256x3_S_d0_1 h_S_) main_v6 main_c_1
  let main_v8 : IVec S_ 1 := andi main_v3 main_v7
  let main_v9 : FVec F S256x8 .f32 := Host.absf main_arg2
  let main_cst_2 : FVec F S_ .f32 := constant S_ .f32 0x7F800000#32
  let main_v10 : FVec F S256x8 .f32 := broadcastInDim S256x8 ![] bcast_S_S256x8 main_cst_2
  let main_v11 : IVec S256x8 1 := cmpf .olt main_v9 main_v10
  let main_c_3 : IVec S_ 1 := constantI S_ 1 1#1
  let main_v12 : IVec S_ 1 := (fun x v => Host.reduce IntOp.andi x v reducesTo_S256x8_S_d0_1 h_S_) main_v11 main_c_3
  let main_v13 : IVec S_ 1 := andi main_v8 main_v12
  let main_v14 : FVec F S256x4x32 .f32 := Host.absf main_arg3
  let main_cst_4 : FVec F S_ .f32 := constant S_ .f32 0x7F800000#32
  let main_v15 : FVec F S256x4x32 .f32 := broadcastInDim S256x4x32 ![] bcast_S_S256x4x32 main_cst_4
  let main_v16 : IVec S256x4x32 1 := cmpf .olt main_v14 main_v15
  fn_part1 (F := F) main_arg4 main_arg5 main_arg6 main_arg7 main_arg8 main_arg9 main_arg10 main_v13 main_v16
-- ==== Kernel.lean ====
abbrev S256x1024x3 : Shape := ⟨3, ![256, 1024, 3]⟩
abbrev S256x3 : Shape := ⟨2, ![256, 3]⟩
abbrev S256x8 : Shape := ⟨2, ![256, 8]⟩
abbrev S256x4x32 : Shape := ⟨3, ![256, 4, 32]⟩
abbrev S256x32 : Shape := ⟨2, ![256, 32]⟩
abbrev S8x32 : Shape := ⟨2, ![8, 32]⟩
abbrev S32x16 : Shape := ⟨2, ![32, 16]⟩
abbrev S16x256 : Shape := ⟨2, ![16, 256]⟩
abbrev S4x256 : Shape := ⟨2, ![4, 256]⟩
abbrev S256 : Shape := ⟨1, ![256]⟩
abbrev S256x256 : Shape := ⟨2, ![256, 256]⟩
abbrev S256x1x3 : Shape := ⟨3, ![256, 1, 3]⟩
abbrev S256x1x8 : Shape := ⟨3, ![256, 1, 8]⟩
abbrev S256x1x32 : Shape := ⟨3, ![256, 1, 32]⟩
abbrev S256x1x256 : Shape := ⟨3, ![256, 1, 256]⟩
abbrev S256x1024x256 : Shape := ⟨3, ![256, 1024, 256]⟩
abbrev S1x1024x3 : Shape := ⟨3, ![1, 1024, 3]⟩
abbrev S1x1x3 : Shape := ⟨3, ![1, 1, 3]⟩
abbrev S1x1x8 : Shape := ⟨3, ![1, 1, 8]⟩
abbrev S1x4x32 : Shape := ⟨3, ![1, 4, 32]⟩
abbrev S1x1x32 : Shape := ⟨3, ![1, 1, 32]⟩
abbrev S1x1x256 : Shape := ⟨3, ![1, 1, 256]⟩
abbrev S1x1024x256 : Shape := ⟨3, ![1, 1024, 256]⟩
abbrev S1024x3 : Shape := ⟨2, ![1024, 3]⟩
abbrev S1x3 : Shape := ⟨2, ![1, 3]⟩
abbrev S1024 : Shape := ⟨1, ![1024]⟩
abbrev S1024x1 : Shape := ⟨2, ![1024, 1]⟩
abbrev S1024x4 : Shape := ⟨2, ![1024, 4]⟩
abbrev S4x32 : Shape := ⟨2, ![4, 32]⟩
abbrev S1x32 : Shape := ⟨2, ![1, 32]⟩
abbrev S1024x32 : Shape := ⟨2, ![1024, 32]⟩
abbrev S1x8 : Shape := ⟨2, ![1, 8]⟩
abbrev S1024x8 : Shape := ⟨2, ![1024, 8]⟩
abbrev S1024x16 : Shape := ⟨2, ![1024, 16]⟩
abbrev S1024x256 : Shape := ⟨2, ![1024, 256]⟩
abbrev S1x256 : Shape := ⟨2, ![1, 256]⟩

abbrev nBuf : Space → Nat
  | .hbm => 17
  | .vmem => 21
  | .smem => 0
  | _ => 0

abbrev bufTy : (tb : Table) → Fin (tcTables nBuf tb) → BufTy
  | .hbm, ⟨0, _⟩ => ⟨S256x1024x3, .f32⟩
  | .hbm, ⟨1, _⟩ => ⟨S256x3, .f32⟩
  | .hbm, ⟨2, _⟩ => ⟨S256x8, .f32⟩
  | .hbm, ⟨3, _⟩ => ⟨S256x4x32, .f32⟩
  | .hbm, ⟨4, _⟩ => ⟨S256x32, .f32⟩
  | .hbm, ⟨5, _⟩ => ⟨S8x32, .f32⟩
  | .hbm, ⟨6, _⟩ => ⟨S32x16, .f32⟩
  | .hbm, ⟨7, _⟩ => ⟨S16x256, .f32⟩
  | .hbm, ⟨8, _⟩ => ⟨S4x256, .f32⟩
  | .hbm, ⟨9, _⟩ => ⟨S256, .f32⟩
  | .hbm, ⟨10, _⟩ => ⟨S256x256, .f32⟩
  | .hbm, ⟨11, _⟩ => ⟨S256x1x3, .f32⟩
  | .hbm, ⟨12, _⟩ => ⟨S256x1x8, .f32⟩
  | .hbm, ⟨13, _⟩ => ⟨S256x1x32, .f32⟩
  | .hbm, ⟨14, _⟩ => ⟨S256x1x256, .f32⟩
  | .hbm, ⟨15, _⟩ => ⟨S256x1024x256, .f32⟩
  | .hbm, ⟨16, _⟩ => ⟨S256x1024x256, .f32⟩
  | .local _ .vmem, ⟨0, _⟩ => ⟨S1x1024x3, .f32⟩
  | .local _ .vmem, ⟨1, _⟩ => ⟨S1x1024x3, .f32⟩
  | .local _ .vmem, ⟨2, _⟩ => ⟨S1x1x3, .f32⟩
  | .local _ .vmem, ⟨3, _⟩ => ⟨S1x1x3, .f32⟩
  | .local _ .vmem, ⟨4, _⟩ => ⟨S1x1x8, .f32⟩
  | .local _ .vmem, ⟨5, _⟩ => ⟨S1x1x8, .f32⟩
  | .local _ .vmem, ⟨6, _⟩ => ⟨S1x4x32, .f32⟩
  | .local _ .vmem, ⟨7, _⟩ => ⟨S1x4x32, .f32⟩
  | .local _ .vmem, ⟨8, _⟩ => ⟨S1x1x32, .f32⟩
  | .local _ .vmem, ⟨9, _⟩ => ⟨S1x1x32, .f32⟩
  | .local _ .vmem, ⟨10, _⟩ => ⟨S8x32, .f32⟩
  | .local _ .vmem, ⟨11, _⟩ => ⟨S32x16, .f32⟩
  | .local _ .vmem, ⟨12, _⟩ => ⟨S16x256, .f32⟩
  | .local _ .vmem, ⟨13, _⟩ => ⟨S4x256, .f32⟩
  | .local _ .vmem, ⟨14, _⟩ => ⟨S256, .f32⟩
  | .local _ .vmem, ⟨15, _⟩ => ⟨S1x1x256, .f32⟩
  | .local _ .vmem, ⟨16, _⟩ => ⟨S1x1x256, .f32⟩
  | .local _ .vmem, ⟨17, _⟩ => ⟨S1x1024x256, .f32⟩
  | .local _ .vmem, ⟨18, _⟩ => ⟨S1x1024x256, .f32⟩
  | .local _ .vmem, ⟨19, _⟩ => ⟨S1x1024x256, .f32⟩
  | .local _ .vmem, ⟨20, _⟩ => ⟨S1x1024x256, .f32⟩
  | _, _ => ⟨S256x1024x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1024x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S256x3_S256x1x3_0_2 : S256x3.BroadcastsInDim S256x1x3 (![0, 2] : Fin 2 → Fin S256x1x3.rank)
  bcast_S256x8_S256x1x8_0_2 : S256x8.BroadcastsInDim S256x1x8 (![0, 2] : Fin 2 → Fin S256x1x8.rank)
  bcast_S256x32_S256x1x32_0_2 : S256x32.BroadcastsInDim S256x1x32 (![0, 2] : Fin 2 → Fin S256x1x32.rank)
  bcast_S256x256_S256x1x256_0_2 : S256x256.BroadcastsInDim S256x1x256 (![0, 2] : Fin 2 → Fin S256x1x256.rank)
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x1x3_S1x1x3_0_0_0 : ∀ a, (![0, 0, 0] : Fin 3 → Nat) a + S1x1x3.size a ≤ S1x1x3.size a
  h_S1x1x3 : 0 < S1x1x3.numel
  shapeCasts_S1x1x3_S1x3 : S1x1x3.ShapeCasts S1x3
  broadcasts_S1x3_S1024x3 : S1x3.Broadcasts S1024x3
  reduces_S1024x3_S1024 : S1024x3.Reduces [1] S1024
  shapeCasts_S1024_S1024x1 : S1024.ShapeCasts S1024x1
  concatenates_S1024x1_S1024x3_S1024x4_d1 : Shape.Concatenates [S1024x1, S1024x3] S1024x4 1
  inb_S1x4x32_S1x4x32_0_0_0 : ∀ a, (![0, 0, 0] : Fin 3 → Nat) a + S1x4x32.size a ≤ S1x4x32.size a
  h_S1x4x32 : 0 < S1x4x32.numel
  shapeCasts_S1x4x32_S4x32 : S1x4x32.ShapeCasts S4x32
  inb_S1x1x32_S1x1x32_0_0_0 : ∀ a, (![0, 0, 0] : Fin 3 → Nat) a + S1x1x32.size a ≤ S1x1x32.size a
  h_S1x1x32 : 0 < S1x1x32.numel
  shapeCasts_S1x1x32_S1x32 : S1x1x32.ShapeCasts S1x32
  bitsLt_bf16_f32 : FTy.bits .bf16 < FTy.bits .f32
  broadcasts_S1x32_S1024x32 : S1x32.Broadcasts S1024x32
  inb_S1x1x8_S1x1x8_0_0_0 : ∀ a, (![0, 0, 0] : Fin 3 → Nat) a + S1x1x8.size a ≤ S1x1x8.size a
  h_S1x1x8 : 0 < S1x1x8.numel
  shapeCasts_S1x1x8_S1x8 : S1x1x8.ShapeCasts S1x8
  broadcasts_S1024x1_S1024x8 : S1024x1.Broadcasts S1024x8
  broadcasts_S1x8_S1024x8 : S1x8.Broadcasts S1024x8
  inb_S8x32_S8x32_0_0 : ∀ a, (![0, 0] : Fin 2 → Nat) a + S8x32.size a ≤ S8x32.size a
  h_S8x32 : 0 < S8x32.numel
  inb_S32x16_S32x16_0_0 : ∀ a, (![0, 0] : Fin 2 → Nat) a + S32x16.size a ≤ S32x16.size a
  h_S32x16 : 0 < S32x16.numel
  broadcasts_S1024x1_S1024x16 : S1024x1.Broadcasts S1024x16
  inb_S16x256_S16x256_0_0 : ∀ a, (![0, 0] : Fin 2 → Nat) a + S16x256.size a ≤ S16x256.size a
  h_S16x256 : 0 < S16x256.numel
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  broadcasts_S1024x1_S1024x4 : S1024x1.Broadcasts S1024x4
  inb_S4x256_S4x256_0_0 : ∀ a, (![0, 0] : Fin 2 → Nat) a + S4x256.size a ≤ S4x256.size a
  h_S4x256 : 0 < S4x256.numel
  inb_S256_S256_0 : ∀ a, (![0] : Fin 1 → Nat) a + S256.size a ≤ S256.size a
  h_S256 : 0 < S256.numel
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  shapeCasts_S256_S1x256 : S256.ShapeCasts S1x256
  broadcasts_S1x256_S1024x256 : S1x256.Broadcasts S1024x256
  dot_S1024x4_S4x32_S1024x32_1_0_0_1_n_n_wf : DotDims.WF S1024x4 S4x32 S1024x32 [1] [0] [0] [1] [] []
  dot_S1024x8_S8x32_S1024x32_1_0_0_1_n_n_wf : DotDims.WF S1024x8 S8x32 S1024x32 [1] [0] [0] [1] [] []
  dot_S1024x32_S32x16_S1024x16_1_0_0_1_n_n_wf : DotDims.WF S1024x32 S32x16 S1024x16 [1] [0] [0] [1] [] []
  dot_S1024x16_S16x256_S1024x256_1_0_0_1_n_n_wf : DotDims.WF S1024x16 S16x256 S1024x256 [1] [0] [0] [1] [] []
  dot_S1024x4_S4x256_S1024x256_1_0_0_1_n_n_wf : DotDims.WF S1024x4 S4x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S256x1024x3.size a
  hwx0_0 : ∀ i : grid0.Coords, EltTy.bits .f32 = 32 ∨ (Rect.block (s := S256x1024x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x3.size a ≤ S256x1x3.size a
  hwx0_1 : ∀ i : grid0.Coords, EltTy.bits .f32 = 32 ∨ (Rect.block (s := S256x1x3) S1x1x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8.size a ≤ S256x1x8.size a
  hwx0_2 : ∀ i : grid0.Coords, EltTy.bits .f32 = 32 ∨ (Rect.block (s := S256x1x8) S1x1x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x32.size a ≤ S256x4x32.size a
  hwx0_3 : ∀ i : grid0.Coords, EltTy.bits .f32 = 32 ∨ (Rect.block (s := S256x4x32) S1x4x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x32.size a ≤ S256x1x32.size a
  hwx0_4 : ∀ i : grid0.Coords, EltTy.bits .f32 = 32 ∨ (Rect.block (s := S256x1x32) S1x1x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x32.size a ≤ S8x32.size a
  hwx0_5 : ∀ i : grid0.Coords, EltTy.bits .f32 = 32 ∨ (Rect.block (s := S8x32) S8x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x16.size a ≤ S32x16.size a
  hwx0_6 : ∀ i : grid0.Coords, EltTy.bits .f32 = 32 ∨ (Rect.block (s := S32x16) S32x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x256.size a ≤ S16x256.size a
  hwx0_7 : ∀ i : grid0.Coords, EltTy.bits .f32 = 32 ∨ (Rect.block (s := S16x256) S16x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4x256.size a ≤ S4x256.size a
  hwx0_8 : ∀ i : grid0.Coords, EltTy.bits .f32 = 32 ∨ (Rect.block (s := S4x256) S4x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x256.size a ≤ S256x1x256.size a
  hwx0_10 : ∀ i : grid0.Coords, EltTy.bits .f32 = 32 ∨ (Rect.block (s := S256x1x256) S1x1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1024x256.size a ≤ S256x1024x256.size a
  hwx0_11 : ∀ i : grid0.Coords, EltTy.bits .f32 = 32 ∨ (Rect.block (s := S256x1024x256) S1x1024x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1024x256.size a ≤ S256x1024x256.size a
  hwx0_12 : ∀ i : grid0.Coords, EltTy.bits .f32 = 32 ∨ (Rect.block (s := S256x1024x256) S1x1024x256.size (cc0_transform_12 i) (hinb0_12 i)).WholeWords (EltTy.packing .f32)

variable [Facts₀]

def dot_S1024x4_S4x32_S1024x32_1_0_0_1_n_n : DotDims S1024x4 S4x32 S1024x32 where
  lhsContracting := [1]
  rhsContracting := [0]
  lhsNonContracting := [0]
  rhsNonContracting := [1]
  lhsBatch := []
  rhsBatch := []
  wf := dot_S1024x4_S4x32_S1024x32_1_0_0_1_n_n_wf
def dot_S1024x8_S8x32_S1024x32_1_0_0_1_n_n : DotDims S1024x8 S8x32 S1024x32 where
  lhsContracting := [1]
  rhsContracting := [0]
  lhsNonContracting := [0]
  rhsNonContracting := [1]
  lhsBatch := []
  rhsBatch := []
  wf := dot_S1024x8_S8x32_S1024x32_1_0_0_1_n_n_wf
def dot_S1024x32_S32x16_S1024x16_1_0_0_1_n_n : DotDims S1024x32 S32x16 S1024x16 where
  lhsContracting := [1]
  rhsContracting := [0]
  lhsNonContracting := [0]
  rhsNonContracting := [1]
  lhsBatch := []
  rhsBatch := []
  wf := dot_S1024x32_S32x16_S1024x16_1_0_0_1_n_n_wf
def dot_S1024x16_S16x256_S1024x256_1_0_0_1_n_n : DotDims S1024x16 S16x256 S1024x256 where
  lhsContracting := [1]
  rhsContracting := [0]
  lhsNonContracting := [0]
  rhsNonContracting := [1]
  lhsBatch := []
  rhsBatch := []
  wf := dot_S1024x16_S16x256_S1024x256_1_0_0_1_n_n_wf
def dot_S1024x4_S4x256_S1024x256_1_0_0_1_n_n : DotDims S1024x4 S4x256 S1024x256 where
  lhsContracting := [1]
  rhsContracting := [0]
  lhsNonContracting := [0]
  rhsNonContracting := [1]
  lhsBatch := []
  rhsBatch := []
  wf := dot_S1024x4_S4x256_S1024x256_1_0_0_1_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x4x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1x32.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S16x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S4x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v3) S1x1x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_0) S1x1024x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v4_1) S1x1024x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S256x1024x3 : Shape := ⟨3, ![256, 1024, 3]⟩
abbrev S256x3 : Shape := ⟨2, ![256, 3]⟩
abbrev S256x8 : Shape := ⟨2, ![256, 8]⟩
abbrev S256x4x32 : Shape := ⟨3, ![256, 4, 32]⟩
abbrev S256x32 : Shape := ⟨2, ![256, 32]⟩
abbrev S8x32 : Shape := ⟨2, ![8, 32]⟩
abbrev S32x16 : Shape := ⟨2, ![32, 16]⟩
abbrev S16x256 : Shape := ⟨2, ![16, 256]⟩
abbrev S4x256 : Shape := ⟨2, ![4, 256]⟩
abbrev S256 : Shape := ⟨1, ![256]⟩
abbrev S256x256 : Shape := ⟨2, ![256, 256]⟩
abbrev S256x1x3 : Shape := ⟨3, ![256, 1, 3]⟩
abbrev S_ : Shape := ⟨0, ![]⟩
abbrev S256x1024 : Shape := ⟨2, ![256, 1024]⟩
abbrev S256x1024x1 : Shape := ⟨3, ![256, 1024, 1]⟩
abbrev S256x1024x4 : Shape := ⟨3, ![256, 1024, 4]⟩
abbrev S256x1024x32 : Shape := ⟨3, ![256, 1024, 32]⟩
abbrev S256x1x32 : Shape := ⟨3, ![256, 1, 32]⟩
abbrev S256x1x8 : Shape := ⟨3, ![256, 1, 8]⟩
abbrev S256x1024x8 : Shape := ⟨3, ![256, 1024, 8]⟩
abbrev S256x1024x16 : Shape := ⟨3, ![256, 1024, 16]⟩
abbrev S256x1024x256 : Shape := ⟨3, ![256, 1024, 256]⟩
abbrev S1x1x256 : Shape := ⟨3, ![1, 1, 256]⟩
abbrev S256x1x256 : Shape := ⟨3, ![256, 1, 256]⟩

abbrev nBuf : Space → Nat
  | .hbm => 70
  | .vmem => 0
  | .smem => 0
  | _ => 0

abbrev bufTy : (tb : Table) → Fin (tcTables nBuf tb) → BufTy
  | .hbm, ⟨0, _⟩ => ⟨S256x1024x3, .f32⟩
  | .hbm, ⟨1, _⟩ => ⟨S256x3, .f32⟩
  | .hbm, ⟨2, _⟩ => ⟨S256x8, .f32⟩
  | .hbm, ⟨3, _⟩ => ⟨S256x4x32, .f32⟩
  | .hbm, ⟨4, _⟩ => ⟨S256x32, .f32⟩
  | .hbm, ⟨5, _⟩ => ⟨S8x32, .f32⟩
  | .hbm, ⟨6, _⟩ => ⟨S32x16, .f32⟩
  | .hbm, ⟨7, _⟩ => ⟨S16x256, .f32⟩
  | .hbm, ⟨8, _⟩ => ⟨S4x256, .f32⟩
  | .hbm, ⟨9, _⟩ => ⟨S256, .f32⟩
  | .hbm, ⟨10, _⟩ => ⟨S256x256, .f32⟩
  | .hbm, ⟨11, _⟩ => ⟨S256x1x3, .f32⟩
  | .hbm, ⟨12, _⟩ => ⟨S256x1024x3, .f32⟩
  | .hbm, ⟨13, _⟩ => ⟨S256x1024x3, .f32⟩
  | .hbm, ⟨14, _⟩ => ⟨S256x1024x3, .f32⟩
  | .hbm, ⟨15, _⟩ => ⟨S_, .f32⟩
  | .hbm, ⟨16, _⟩ => ⟨S256x1024, .f32⟩
  | .hbm, ⟨17, _⟩ => ⟨S256x1024x1, .f32⟩
  | .hbm, ⟨18, _⟩ => ⟨S256x1024x1, .f32⟩
  | .hbm, ⟨19, _⟩ => ⟨S256x1024x4, .f32⟩
  | .hbm, ⟨20, _⟩ => ⟨S256x1024x32, .f32⟩
  | .hbm, ⟨21, _⟩ => ⟨S256x1x32, .f32⟩
  | .hbm, ⟨22, _⟩ => ⟨S256x1024x32, .f32⟩
  | .hbm, ⟨23, _⟩ => ⟨S256x1024x32, .f32⟩
  | .hbm, ⟨24, _⟩ => ⟨S256x1024x32, .f32⟩
  | .hbm, ⟨25, _⟩ => ⟨S256x1024x1, .f32⟩
  | .hbm, ⟨26, _⟩ => ⟨S256x1x8, .f32⟩
  | .hbm, ⟨27, _⟩ => ⟨S256x1024x8, .f32⟩
  | .hbm, ⟨28, _⟩ => ⟨S256x1024x8, .f32⟩
  | .hbm, ⟨29, _⟩ => ⟨S256x1024x8, .f32⟩
  | .hbm, ⟨30, _⟩ => ⟨S256x1024x8, .f32⟩
  | .hbm, ⟨31, _⟩ => ⟨S256x1024x32, .f32⟩
  | .hbm, ⟨32, _⟩ => ⟨S256x1024x32, .f32⟩
  | .hbm, ⟨33, _⟩ => ⟨S_, .f32⟩
  | .hbm, ⟨34, _⟩ => ⟨S256x1024x1, .f32⟩
  | .hbm, ⟨35, _⟩ => ⟨S256x1024x1, .f32⟩
  | .hbm, ⟨36, _⟩ => ⟨S_, .f32⟩
  | .hbm, ⟨37, _⟩ => ⟨S256x1024x1, .f32⟩
  | .hbm, ⟨38, _⟩ => ⟨S256x1024x1, .i1⟩
  | .hbm, ⟨39, _⟩ => ⟨S_, .f32⟩
  | .hbm, ⟨40, _⟩ => ⟨S256x1024x1, .f32⟩
  | .hbm, ⟨41, _⟩ => ⟨S256x1024x1, .f32⟩
  | .hbm, ⟨42, _⟩ => ⟨S256x1024x1, .f32⟩
  | .hbm, ⟨43, _⟩ => ⟨S_, .f32⟩
  | .hbm, ⟨44, _⟩ => ⟨S256x1024x1, .f32⟩
  | .hbm, ⟨45, _⟩ => ⟨S256x1024x1, .f32⟩
  | .hbm, ⟨46, _⟩ => ⟨S_, .f32⟩
  | .hbm, ⟨47, _⟩ => ⟨S256x1024x1, .f32⟩
  | .hbm, ⟨48, _⟩ => ⟨S256x1024x1, .f32⟩
  | .hbm, ⟨49, _⟩ => ⟨S256x1024x1, .f32⟩
  | .hbm, ⟨50, _⟩ => ⟨S_, .f32⟩
  | .hbm, ⟨51, _⟩ => ⟨S_, .f32⟩
  | .hbm, ⟨52, _⟩ => ⟨S256x1024x1, .f32⟩
  | .hbm, ⟨53, _⟩ => ⟨S256x1024x1, .f32⟩
  | .hbm, ⟨54, _⟩ => ⟨S256x1024x16, .f32⟩
  | .hbm, ⟨55, _⟩ => ⟨S256x1024x16, .f32⟩
  | .hbm, ⟨56, _⟩ => ⟨S256x1024x16, .f32⟩
  | .hbm, ⟨57, _⟩ => ⟨S256x1024x256, .f32⟩
  | .hbm, ⟨58, _⟩ => ⟨S256x1024x4, .f32⟩
  | .hbm, ⟨59, _⟩ => ⟨S256x1024x4, .f32⟩
  | .hbm, ⟨60, _⟩ => ⟨S256x1024x1, .f32⟩
  | .hbm, ⟨61, _⟩ => ⟨S256x1024x4, .f32⟩
  | .hbm, ⟨62, _⟩ => ⟨S256x1024x4, .f32⟩
  | .hbm, ⟨63, _⟩ => ⟨S256x1024x256, .f32⟩
  | .hbm, ⟨64, _⟩ => ⟨S1x1x256, .f32⟩
  | .hbm, ⟨65, _⟩ => ⟨S256x1024x256, .f32⟩
  | .hbm, ⟨66, _⟩ => ⟨S256x1024x256, .f32⟩
  | .hbm, ⟨67, _⟩ => ⟨S256x1x256, .f32⟩
  | .hbm, ⟨68, _⟩ => ⟨S256x1024x256, .f32⟩
  | .hbm, ⟨69, _⟩ => ⟨S256x1024x256, .f32⟩
  | _, _ => ⟨S256x1024x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_call0_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst : Ref sig .tc := ⟨.hbm, 33, rfl⟩
abbrev main_v18 : Ref sig .tc := ⟨.hbm, 34, rfl⟩
abbrev main_v19 : Ref sig .tc := ⟨.hbm, 35, rfl⟩
abbrev main_cst_0 : Ref sig .tc := ⟨.hbm, 36, rfl⟩
abbrev main_v20 : Ref sig .tc := ⟨.hbm, 37, rfl⟩
abbrev main_v21 : Ref sig .tc := ⟨.hbm, 38, rfl⟩
abbrev main_cst_1 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_2 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_4 : Ref sig .tc := ⟨.hbm, 50, rfl⟩
abbrev main_call1_v0 : Ref sig .tc := ⟨.hbm, 51, rfl⟩
abbrev main_call1_v1 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩

abbrev nD : Nat := 1
abbrev τ : Topo := Topo.v7x

variable {F : FTy → Type} [FloatOps F]

class Facts₀ : Prop where
  bcast_S256x3_S256x1x3_0_2 : S256x3.BroadcastsInDim S256x1x3 (![0, 2] : Fin 2 → Fin S256x1x3.rank)
  bcast_S256x1x3_S256x1024x3_0_1_2 : S256x1x3.BroadcastsInDim S256x1024x3 (![0, 1, 2] : Fin 3 → Fin S256x1024x3.rank)
  reducesTo_S256x1024x3_S256x1024_d2 : S256x1024x3.ReducesTo [2] S256x1024
  h_S_ : 0 < S_.numel
  bcast_S256x1024_S256x1024x1_0_1 : S256x1024.BroadcastsInDim S256x1024x1 (![0, 1] : Fin 2 → Fin S256x1024x1.rank)
  concatenates_S256x1024x1_S256x1024x3_S256x1024x4_d2 : Shape.Concatenates [S256x1024x1, S256x1024x3] S256x1024x4 2
  bcast_S256x32_S256x1x32_0_2 : S256x32.BroadcastsInDim S256x1x32 (![0, 2] : Fin 2 → Fin S256x1x32.rank)
  bcast_S256x1x32_S256x1024x32_0_1_2 : S256x1x32.BroadcastsInDim S256x1024x32 (![0, 1, 2] : Fin 3 → Fin S256x1024x32.rank)
  bcast_S256x8_S256x1x8_0_2 : S256x8.BroadcastsInDim S256x1x8 (![0, 2] : Fin 2 → Fin S256x1x8.rank)
  bcast_S256x1024x1_S256x1024x8_0_1_2 : S256x1024x1.BroadcastsInDim S256x1024x8 (![0, 1, 2] : Fin 3 → Fin S256x1024x8.rank)
  bcast_S256x1x8_S256x1024x8_0_1_2 : S256x1x8.BroadcastsInDim S256x1024x8 (![0, 1, 2] : Fin 3 → Fin S256x1024x8.rank)
  bcast_S_S256x1024x1 : S_.BroadcastsInDim S256x1024x1 (![] : Fin 0 → Fin S256x1024x1.rank)
  bcast_S256x1024x1_S256x1024x16_0_1_2 : S256x1024x1.BroadcastsInDim S256x1024x16 (![0, 1, 2] : Fin 3 → Fin S256x1024x16.rank)
  bcast_S256x1024x1_S256x1024x4_0_1_2 : S256x1024x1.BroadcastsInDim S256x1024x4 (![0, 1, 2] : Fin 3 → Fin S256x1024x4.rank)
  bcast_S256_S1x1x256_2 : S256.BroadcastsInDim S1x1x256 (![2] : Fin 1 → Fin S1x1x256.rank)
  bcast_S1x1x256_S256x1024x256_0_1_2 : S1x1x256.BroadcastsInDim S256x1024x256 (![0, 1, 2] : Fin 3 → Fin S256x1024x256.rank)
  bcast_S256x256_S256x1x256_0_2 : S256x256.BroadcastsInDim S256x1x256 (![0, 2] : Fin 2 → Fin S256x1x256.rank)
  bcast_S256x1x256_S256x1024x256_0_1_2 : S256x1x256.BroadcastsInDim S256x1024x256 (![0, 1, 2] : Fin 3 → Fin S256x1024x256.rank)
  dot_S256x1024x4_S256x4x32_S256x1024x32_2_1_1_2_0_0_wf : DotDims.WF S256x1024x4 S256x4x32 S256x1024x32 [2] [1] [1] [2] [0] [0]
  dot_S256x1024x8_S8x32_S256x1024x32_2_0_01_1_n_n_wf : DotDims.WF S256x1024x8 S8x32 S256x1024x32 [2] [0] [0, 1] [1] [] []
  dot_S256x1024x32_S32x16_S256x1024x16_2_0_01_1_n_n_wf : DotDims.WF S256x1024x32 S32x16 S256x1024x16 [2] [0] [0, 1] [1] [] []
  dot_S256x1024x16_S16x256_S256x1024x256_2_0_01_1_n_n_wf : DotDims.WF S256x1024x16 S16x256 S256x1024x256 [2] [0] [0, 1] [1] [] []
  dot_S256x1024x4_S4x256_S256x1024x256_2_0_01_1_n_n_wf : DotDims.WF S256x1024x4 S4x256 S256x1024x256 [2] [0] [0, 1] [1] [] []

variable [Facts₀]

def dot_S256x1024x4_S256x4x32_S256x1024x32_2_1_1_2_0_0 : DotDims S256x1024x4 S256x4x32 S256x1024x32 where
  lhsContracting := [2]
  rhsContracting := [1]
  lhsNonContracting := [1]
  rhsNonContracting := [2]
  lhsBatch := [0]
  rhsBatch := [0]
  wf := dot_S256x1024x4_S256x4x32_S256x1024x32_2_1_1_2_0_0_wf
def dot_S256x1024x8_S8x32_S256x1024x32_2_0_01_1_n_n : DotDims S256x1024x8 S8x32 S256x1024x32 where
  lhsContracting := [2]
  rhsContracting := [0]
  lhsNonContracting := [0, 1]
  rhsNonContracting := [1]
  lhsBatch := []
  rhsBatch := []
  wf := dot_S256x1024x8_S8x32_S256x1024x32_2_0_01_1_n_n_wf
def dot_S256x1024x32_S32x16_S256x1024x16_2_0_01_1_n_n : DotDims S256x1024x32 S32x16 S256x1024x16 where
  lhsContracting := [2]
  rhsContracting := [0]
  lhsNonContracting := [0, 1]
  rhsNonContracting := [1]
  lhsBatch := []
  rhsBatch := []
  wf := dot_S256x1024x32_S32x16_S256x1024x16_2_0_01_1_n_n_wf
def dot_S256x1024x16_S16x256_S256x1024x256_2_0_01_1_n_n : DotDims S256x1024x16 S16x256 S256x1024x256 where
  lhsContracting := [2]
  rhsContracting := [0]
  lhsNonContracting := [0, 1]
  rhsNonContracting := [1]
  lhsBatch := []
  rhsBatch := []
  wf := dot_S256x1024x16_S16x256_S256x1024x256_2_0_01_1_n_n_wf
def dot_S256x1024x4_S4x256_S256x1024x256_2_0_01_1_n_n : DotDims S256x1024x4 S4x256 S256x1024x256 where
  lhsContracting := [2]
  rhsContracting := [0]
  lhsNonContracting := [0, 1]
  rhsNonContracting := [1]
  lhsBatch := []
  rhsBatch := []
  wf := dot_S256x1024x4_S4x256_S256x1024x256_2_0_01_1_n_n_wf

class Facts : Prop extends Facts₀ where

variable [Facts]
-- ==== Proof.Spec.lean ====
/-
  The pair-feature layer, one (nucleus, neighbour) pair at a time, on the extended reals.

  For a neighbour at position r of a nucleus at position Rn the layer takes the displacement diff = r − Rn, its length
  dist = √(Σ diff²) and the four features (dist, diff). The nucleus' own 4×32 filter K and bias give
  tanh(feats·K + bias), gated entry by entry by the envelope sum Σ_v exp(−dist·scale_v)·envw_v; this is h. A smooth
  cut-off of x = dist/5, (1 − x)²(1 + 2x) where x < 1 and zero elsewhere, scales h·W_beta, and W_gamma maps the result
  to the first output row. The second output row is ((feats / dist)·log(1 + dist))·W_edge + b_edge + z of the nucleus.
  Both programs compute exactly these expressions, operation by operation; the float words of 0, 1, 2 and 5 are kept as
  words, the same on both sides. The arrays' forms below read each row out of the eleven argument arrays.
-/
import Idealize.ShloMosaic.PureOps.Ideal.Laws
import Idealize.ShloMosaic.Lib.ValueIdx

noncomputable section

namespace Cert.Spec

open Idealize.ShloMosaic Idealize.ShloMosaic.ValueIdx

/-- The f32 words of 0, 1, 2 and 5 read at the extended reals. -/
abbrev w0 : EReal := Ideal.ofBits .f32 0x00000000#32
abbrev w1 : EReal := Ideal.ofBits .f32 0x3F800000#32
abbrev w2 : EReal := Ideal.ofBits .f32 0x40000000#32
abbrev w5 : EReal := Ideal.ofBits .f32 0x40A00000#32

/-- The displacement of a neighbour from its nucleus. -/
def diff (r Rn : Fin 3 → EReal) (d : Fin 3) : EReal := r d - Rn d

/-- Its length. -/
def dist (r Rn : Fin 3 → EReal) : EReal := Ideal.sqrt (∑ d : Fin 3, diff r Rn d * diff r Rn d)

/-- The four features: the length, then the displacement. -/
def feats (r Rn : Fin 3 → EReal) (c : Fin 4) : EReal := Fin.cases (dist r Rn) (fun d => diff r Rn d) c

theorem feats_zero (r Rn : Fin 3 → EReal) : feats r Rn 0 = dist r Rn := rfl
theorem feats_succ (r Rn : Fin 3 → EReal) (d : Fin 3) : feats r Rn d.succ = diff r Rn d := rfl

/-- The filtered features, gated by the envelopes. -/
def hid (r Rn : Fin 3 → EReal) (sc : Fin 8 → EReal) (K : Fin 4 → Fin 32 → EReal) (bias : Fin 32 → EReal)
    (envw : Fin 8 → Fin 32 → EReal) (k : Fin 32) : EReal :=
  Ideal.tanh ((∑ c : Fin 4, feats r Rn c * K c k) + bias k) * (∑ v : Fin 8, Ideal.exp (-dist r Rn * sc v) * envw v k)

/-- The length over the cut-off radius. -/
def xcut (r Rn : Fin 3 → EReal) : EReal := Ideal.div (dist r Rn) w5

/-- The smooth cut-off. -/
def cut (r Rn : Fin 3 → EReal) : EReal :=
  Scalar.select (Ideal.cmp .olt (xcut r Rn) w1) ((w1 - xcut r Rn) * (w1 - xcut r Rn) * (w1 + w2 * xcut r Rn)) w0

def beta (r Rn : Fin 3 → EReal) (sc : Fin 8 → EReal) (K : Fin 4 → Fin 32 → EReal) (bias : Fin 32 → EReal)
    (envw : Fin 8 → Fin 32 → EReal) (Wb : Fin 32 → Fin 16 → EReal) (j : Fin 16) : EReal :=
  (∑ k : Fin 32, hid r Rn sc K bias envw k * Wb k j) * cut r Rn

/-- The first output row. -/
def gamma (r Rn : Fin 3 → EReal) (sc : Fin 8 → EReal) (K : Fin 4 → Fin 32 → EReal) (bias : Fin 32 → EReal)
    (envw : Fin 8 → Fin 32 → EReal) (Wb : Fin 32 → Fin 16 → EReal) (Wg : Fin 16 → Fin 256 → EReal) (f : Fin 256) : EReal :=
  ∑ j : Fin 16, beta r Rn sc K bias envw Wb j * Wg j f

/-- The features rescaled by log(1 + dist) / dist. -/
def inp (r Rn : Fin 3 → EReal) (c : Fin 4) : EReal := Ideal.div (feats r Rn c) (dist r Rn) * Ideal.log1p (dist r Rn)

/-- The second output row. -/
def edge (r Rn : Fin 3 → EReal) (We : Fin 4 → Fin 256 → EReal) (be zn : Fin 256 → EReal) (f : Fin 256) : EReal :=
  (∑ c : Fin 4, inp r Rn c * We c f) + be f + zn f

/-! ## The two results as whole arrays of the arguments -/

abbrev Sh1 (a : ℕ) : Shape := ⟨1, ![a]⟩
abbrev Sh2 (a b : ℕ) : Shape := ⟨2, ![a, b]⟩
abbrev Sh3 (a b c : ℕ) : Shape := ⟨3, ![a, b, c]⟩

/-- Entry (n, e, f) of the first result. -/
def gammaArr (x0 : (Sh3 256 1024 3).Idx → EReal) (x1 : (Sh2 256 3).Idx → EReal) (x2 : (Sh2 256 8).Idx → EReal)
    (x3 : (Sh3 256 4 32).Idx → EReal) (x4 : (Sh2 256 32).Idx → EReal) (x5 : (Sh2 8 32).Idx → EReal)
    (x6 : (Sh2 32 16).Idx → EReal) (x7 : (Sh2 16 256).Idx → EReal) : (Sh3 256 1024 256).Idx → EReal :=
  fun i => gamma (fun d => x0 (ix3 (i 0) (i 1) d)) (fun d => x1 (ix2 (i 0) d)) (fun v => x2 (ix2 (i 0) v))
    (fun c k => x3 (ix3 (i 0) c k)) (fun k => x4 (ix2 (i 0) k)) (fun v k => x5 (ix2 v k)) (fun k j => x6 (ix2 k j))
    (fun j f => x7 (ix2 j f)) (i 2)

/-- Entry (n, e, f) of the second result. -/
def edgeArr (x0 : (Sh3 256 1024 3).Idx → EReal) (x1 : (Sh2 256 3).Idx → EReal) (x8 : (Sh2 4 256).Idx → EReal)
    (x9 : (Sh1 256).Idx → EReal) (x10 : (Sh2 256 256).Idx → EReal) : (Sh3 256 1024 256).Idx → EReal :=
  fun i => edge (fun d => x0 (ix3 (i 0) (i 1) d)) (fun d => x1 (ix2 (i 0) d)) (fun c f => x8 (ix2 c f))
    (fun f => x9 (ix1 f)) (fun f => x10 (ix2 (i 0) f)) (i 2)

end Cert.Spec

end
-- ==== Proof.LibKeepdims.lean ====
/-
  Two layout facts for a reduction kept as a column: a length-`a` vector cast to an `a × 1` column reads, at
  row `p`, the vector at `p`; and an `a × 1` column broadcast to `a × b` reads, at `(p, c)`, the column at row `p`.
  Together they say that a row statistic (a row's sum, maximum, …) broadcast back over its row is that statistic
  at every column. Stated over literal rank-1 and rank-2 shapes with indices written by coordinates.
-/
import Idealize.ShloMosaic.Lib.ValueIdx
import Idealize.ShloMosaic.Lib.Pipeline.Value

namespace Cert.LibKeepdims

open Idealize.ShloMosaic Idealize.ShloMosaic.ValueIdx

variable {α : Type}

/-- An `[a]` array cast to `[a, 1]` reads, at `(p, u)`, the operand at `p`, whatever the unit coordinate `u`:
    the two indices have the same row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

end Cert.LibKeepdims
-- ==== Proof.LibDenseRows.lean ====
/-
  Dense layers read along a row, for any number of rows and any widths. A dense layer sends a row x to x·W + b, and the
  rectifier takes the maximum with zero. A kernel spells the layer on a block of R rows as a block product into a zero
  accumulator plus the bias cast to one row and broadcast down the rows; a host program spells it on all R rows as a
  dot_general plus the bias broadcast in two steps. Read along row r, both are the row function of row r of the
  operand — at the extended reals, where the two products are the same sum over the contracted coordinate. The same
  for the rectifier in its two spellings (the maximum with a zero splat; the maximum with the zero word broadcast from
  a scalar), and for a change of float format, which changes no entry. The products are stated at the plain
  dimension record (rows × contraction times contraction × columns), to which a printed record of the same lists unfolds.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

noncomputable section

namespace Cert.LibDenseRows

open Idealize.ShloMosaic Idealize.ShloMosaic.ValueIdx

/-- The f32 word of zero read at the extended reals; kept as a word, since both spellings write the same one. -/
abbrev zeroW : EReal := Ideal.ofBits .f32 0x00000000#32

/-- A dense layer on one row: x ↦ x·W + b. -/
def dense {K N : ℕ} (x : Fin K → EReal) (W : Fin K → Fin N → EReal) (b : Fin N → EReal) : Fin N → EReal :=
  fun n => (∑ k : Fin K, x k * W k n) + b n

/-- The rectifier on one row. -/
def relu {N : ℕ} (x : Fin N → EReal) : Fin N → EReal := fun n => max (x n) zeroW

abbrev Sh2 (a b : ℕ) : Shape := ⟨2, ![a, b]⟩
abbrev Sh1 (a : ℕ) : Shape := ⟨1, ![a]⟩
abbrev Sh0 : Shape := ⟨0, ![]⟩

variable {R K N : ℕ} {φ₁ φ₂ : FTy}

/-- A block product into the zero accumulator, read at (a, b): the sum over the contracted coordinate. -/
theorem matmul_plain_zero_apply (prec : Option ContractPrecision) (A : FVec Ideal (Sh2 R K) φ₁) (B : FVec Ideal (Sh2 K N) φ₂)
    (a : Fin R) (b : Fin N) :
    matmul (DotDims.plain R K N) prec A B (constant (Sh2 R N) .f32 0x00000000#32) (ix2 a b) = ∑ c : Fin K, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

/-! ## Pointwise operations read at an index -/

theorem exp_apply {s : Shape} {φ : FTy} (v : FVec Ideal s φ) (i : s.Idx) : exp v i = Ideal.exp (v i) := rfl
theorem hostExp_apply {s : Shape} {φ : FTy} (v : FVec Ideal s φ) (i : s.Idx) : Host.exp v i = Ideal.exp (v i) := rfl
theorem hostDivf_apply {s : Shape} {φ : FTy} (a b : FVec Ideal s φ) (i : s.Idx) : Host.divf a b i = Ideal.div (a i) (b i) := rfl

/-- A change of float format changes no entry. -/
theorem truncf_row {φ ψ : FTy} (Z : FVec Ideal (Sh2 R N) φ) (h : ψ.bits < φ.bits) (r : Fin R) :
    (fun n : Fin N => (truncf ψ Z h : FVec Ideal (Sh2 R N) ψ) (ix2 r n)) = fun n => Z (ix2 r n) := rfl

/-! ## A kernel's spelling of a layer, on a block of R rows -/

/-- The kernel's dense layer: the block times the weights into a zero accumulator, plus the bias as a broadcast row. -/
def kDense (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) : FVec Ideal (Sh2 R N) .f32 :=
  addf (matmul (DotDims.plain R K N) none X W (constant (Sh2 R N) .f32 0x00000000#32))
    (broadcastTo (Sh2 R N) (shapeCast (Sh2 1 N) b h1) h2)

theorem kDense_row (X : FVec Ideal (Sh2 R K) φ₁) (W : FVec Ideal (Sh2 K N) φ₂) (b : FVec Ideal (Sh1 N) .f32)
    (h1 : (Sh1 N).ShapeCasts (Sh2 1 N)) (h2 : (Sh2 1 N).Broadcasts (Sh2 R N)) (r : Fin R) :
    (fun n : Fin N => kDense X W b h1 h2 (ix2 r n))
      = dense (fun k => X (ix2 r k)) (fun k n => W (ix2 k n)) (fun n => b (ix1 n)) := by
  funext n
  unfold kDense dense
  rw [addf_apply, matmul_plain_zero_apply, broadcastTo_1b_ab_apply, shapeCast_a_1a_apply]

/-- The kernel's rectifier: the maximum with a splat of the zero word. -/
def kRelu (Z : FVec Ideal (Sh2 R N) .f32) : FVec Ideal (Sh2 R N) .f32 :=
  maximumf Z (broadcast (Sh2 R N) (Scalar.ofBits .f32 0x00000000#32))

theorem kRelu_row (Z : FVec Ideal (Sh2 R N) .f32) (r : Fin R) :
    (fun n : Fin N => kRelu Z (ix2 r n)) = relu (fun n => Z (ix2 r n)) := rfl

/-! ## A host program's spelling of a layer, on all R rows -/

/-- The host's dense layer: a dot_general plus the bias made a one-row matrix and repeated over the rows. -/
def hDense (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) : FVec Ideal (Sh2 R N) .f32 :=
  addf (Host.dotGeneral (DotDims.plain R K N) none X W)
    (broadcastInDim (Sh2 R N) ![0, 1] h2 (broadcastInDim (Sh2 1 N) ![1] h1 b))

/-- A bias vector made a one-row matrix and then repeated over the rows reads, at (r, n), the bias at n. -/
theorem biasRows_apply {α : Type} (b : (Sh1 N).Idx → α)
    (h1 : (Sh1 N).BroadcastsInDim (Sh2 1 N) ![1]) (h2 : (Sh2 1 N).BroadcastsInDim (Sh2 R N) ![0, 1]) (r : Fin R) (n : Fin N) :
    broadcastInDim (Sh2 R N) ![0, 1] h2 (broadcastInDim (Sh2 1 N) ![1] h1 b) (ix2 r n) = b (ix1 n) := by
  rw [broadcastInDim_apply ![0, 1] h2 _ (ix2 r n) (ix2 (0 : Fin 1) n) (fun a => by
    match a with
    | ⟨0, _⟩ => rfl
    | ⟨1, _⟩ =>
      show n.val = if N = 1 then 0 else n.val
      split
      · have := n.isLt; omega
      · rfl)]
  rw [broadcastInDim_apply ![1] h1 b (ix2 (0 : Fin 1) n) (ix1 n) (fun a => by
    match a with
    | ⟨0, _⟩ =>
      show n.val = if N = 1 then 0 else n.val
      split
      · have := n.isLt; omega
      · rfl)]

theorem hDense_row (X : FVec Ideal (Sh2 R K) φ₁) (W : FVec Ideal (Sh2 K N) φ₂) (b : FVec Ideal (Sh1 N) .f32)
    (h1 : (Sh1 N).BroadcastsInDim (Sh2 1 N) ![1]) (h2 : (Sh2 1 N).BroadcastsInDim (Sh2 R N) ![0, 1]) (r : Fin R) :
    (fun n : Fin N => hDense X W b h1 h2 (ix2 r n))
      = dense (fun k => X (ix2 r k)) (fun k n => W (ix2 k n)) (fun n => b (ix1 n)) := by
  funext n
  unfold hDense dense
  rw [addf_apply, StackMember.dotGeneral_plain_apply, biasRows_apply]

/-- The reference's rectifier: the maximum with the zero word broadcast from a scalar. -/
def hRelu (Z : FVec Ideal (Sh2 R N) .f32) (hb : Sh0.BroadcastsInDim (Sh2 R N) ![]) : FVec Ideal (Sh2 R N) .f32 :=
  maximumf Z (broadcastInDim (Sh2 R N) ![] hb (constant Sh0 .f32 0x00000000#32))

theorem hRelu_row (Z : FVec Ideal (Sh2 R N) .f32) (hb : Sh0.BroadcastsInDim (Sh2 R N) ![]) (r : Fin R) :
    (fun n : Fin N => hRelu Z hb (ix2 r n)) = relu (fun n => Z (ix2 r n)) := by
  funext n
  unfold hRelu relu
  rw [maximumf_apply, broadcastInDim_apply ![] hb _ (ix2 r n) ix0 (fun a => a.elim0)]
  rfl

end Cert.LibDenseRows
-- ==== Proof.KernelRows.lean ====
/-
  What one grid point leaves in its two output blocks, entry by entry: for the nucleus the point stages, row e of the
  first block is the layer's first output row of neighbour e, and row e of the second block its second output row,
  each as a function of the rows of the staged input blocks.
-/
import proofs.«179704_j39161511804980_1_alg».proof.Proof.Gen.KernelIdeal.Frame
import proofs.«179704_j39161511804980_1_alg».proof.Proof.Spec
import proofs.«179704_j39161511804980_1_alg».proof.Proof.LibKeepdims
import proofs.«179704_j39161511804980_1_alg».proof.Proof.LibDenseRows
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Rows

open Cert.KernelIdeal Cert.KernelIdeal.Gen Idealize.ShloMosaic Idealize.ShloMosaic.ValueIdx

/-! ## Pointwise functions, the lane sum and the block products read at an index -/

theorem sqrt_apply {s : Shape} {φ : FTy} (v : FVec Ideal s φ) (i : s.Idx) : sqrt v i = Ideal.sqrt (v i) := rfl
theorem tanh_apply {s : Shape} {φ : FTy} (v : FVec Ideal s φ) (i : s.Idx) : tanh v i = Ideal.tanh (v i) := rfl
theorem exp_apply {s : Shape} {φ : FTy} (v : FVec Ideal s φ) (i : s.Idx) : exp v i = Ideal.exp (v i) := rfl
theorem log1p_apply {s : Shape} {φ : FTy} (v : FVec Ideal s φ) (i : s.Idx) : log1p v i = Ideal.log1p (v i) := rfl

/-- The index over row e of a 1024-vector with coordinate d inserted on the lane axis is (e, d). -/
theorem lift_row (h : S1024x3.Reduces [1] S1024) (e : Fin 1024) (d : Fin 3) :
    h.lift (ix1 e) d = ix2 e d := by
  funext c; apply Fin.ext
  match c with
  | ⟨0, _⟩ => rfl
  | ⟨1, _⟩ => rfl

/-- A sum over the three lanes of a 1024 × 3 block, read at row e. -/
theorem lanesum_apply (src : FVec Ideal S1024x3 .f32) (h : S1024x3.Reduces [1] S1024) (hφ : FKind.Formats .f32)
    (hacc : (0x00000000#32 : BitVec 32) = 0x00000000#32) (e : Fin 1024) :
    multiReduction .add [1] S1024 src 0x00000000#32 h hφ hacc (ix1 e) = ∑ d : Fin 3, src (ix2 e d) := by
  refine (Ideal.multiReduction_add_single src 0x00000000#32 h hφ hacc (ix1 e)).trans ?_
  exact Finset.sum_congr rfl fun d _ => congrArg src (lift_row h e d)

/-- A block product into the zero accumulator whose dimension record has the plain lists, read at (a, b). -/
theorem mm_apply {R K N : ℕ} {φ₁ φ₂ : FTy} (D : DotDims ⟨2, ![R, K]⟩ ⟨2, ![K, N]⟩ ⟨2, ![R, N]⟩) (hD : D = DotDims.plain R K N)
    (A : FVec Ideal ⟨2, ![R, K]⟩ φ₁) (B : FVec Ideal ⟨2, ![K, N]⟩ φ₂) (a : Fin R) (b : Fin N) :
    matmul D none A B (constant (F := Ideal) ⟨2, ![R, N]⟩ .f32 0x00000000#32) (ix2 a b) = ∑ c : Fin K, A (ix2 a c) * B (ix2 c b) := by
  subst hD
  exact Cert.LibDenseRows.matmul_plain_zero_apply none A B a b

/-! ## The body's values read at an index, one after another -/

/-- The displacement, read at (e, d). -/
theorem pay2_apply (x0 : Vec Ideal S1x1024x3 .f32) (x1 : Vec Ideal S1x1x3 .f32) (e : Fin 1024) (d : Fin 3) :
    k0_pay2 x0 x1 (ix2 e d)
      = Cert.Spec.diff (fun d => x0 (ix3 (0 : Fin 1) e d)) (fun d => x1 (ix3 (0 : Fin 1) (0 : Fin 1) d)) d := by
  unfold k0_pay2
  rw [subf_apply, shapeCast_1ab_ab_apply, broadcastTo_1b_ab_apply, shapeCast_1ab_ab_apply]
  rfl
/-- The length, read at (e, u). -/
theorem pay3_apply (x0 : Vec Ideal S1x1024x3 .f32) (x1 : Vec Ideal S1x1x3 .f32) (e : Fin 1024) (u : Fin 1) :
    k0_pay3 x0 x1 (ix2 e u)
      = Cert.Spec.dist (fun d => x0 (ix3 (0 : Fin 1) e d)) (fun d => x1 (ix3 (0 : Fin 1) (0 : Fin 1) d)) := by
  unfold k0_pay3 Cert.Spec.dist
  rw [sqrt_apply, Cert.LibKeepdims.shapeCast_a_a1_apply, lanesum_apply]
  refine congrArg Ideal.sqrt (Finset.sum_congr rfl fun d _ => ?_)
  rw [mulf_apply, pay2_apply]

/-- The four features, read at (e, c): the length in column 0, the displacement in the other three. -/
theorem pay4_apply (x0 : Vec Ideal S1x1024x3 .f32) (x1 : Vec Ideal S1x1x3 .f32) (e : Fin 1024) (c : Fin 4) :
    k0_pay4 x0 x1 (ix2 e c)
      = Cert.Spec.feats (fun d => x0 (ix3 (0 : Fin 1) e d)) (fun d => x1 (ix3 (0 : Fin 1) (0 : Fin 1) d)) c := by
  unfold k0_pay4
  refine Fin.cases ?_ (fun d => ?_) c
  · rw [Cert.Spec.feats_zero]
    refine (concatenate_pair_apply_left (t := S1024x4) (s₁ := S1024x1) (s₂ := S1024x3) _ _ _ _ (ix2 e (0 : Fin 4)) rfl (ix2 e (0 : Fin 1)) (fun b => ?_)).trans
      (pay3_apply x0 x1 e 0)
    match b with
    | ⟨0, _⟩ => rfl
    | ⟨1, _⟩ => rfl
  · rw [Cert.Spec.feats_succ]
    refine (concatenate_pair_apply_right (t := S1024x4) (s₁ := S1024x1) (s₂ := S1024x3) _ _ _ _ (ix2 e d.succ) rfl rfl (ix2 e d) (fun b hb => ?_) ?_).trans
      (pay2_apply x0 x1 e d)
    · match b with
      | ⟨0, _⟩ => rfl
      | ⟨1, _⟩ => exact absurd rfl hb
    · rfl

/-- The length over the cut-off radius, read at (e, u). -/
theorem pay6_apply (x0 : Vec Ideal S1x1024x3 .f32) (x1 : Vec Ideal S1x1x3 .f32) (e : Fin 1024) (u : Fin 1) :
    k0_pay6 x0 x1 (ix2 e u)
      = Cert.Spec.xcut (fun d => x0 (ix3 (0 : Fin 1) e d)) (fun d => x1 (ix3 (0 : Fin 1) (0 : Fin 1) d)) := by
  unfold k0_pay6 Cert.Spec.xcut
  rw [divf_apply, pay3_apply, broadcast_apply]
  rfl
/-- The gated filtered features, read at (e, k). -/
theorem pay5_apply (x0 : Vec Ideal S1x1024x3 .f32) (x1 : Vec Ideal S1x1x3 .f32) (x3 : Vec Ideal S1x4x32 .f32)
    (x4 : Vec Ideal S1x1x32 .f32) (x2 : Vec Ideal S1x1x8 .f32) (x5 : Vec Ideal S8x32 .f32) (e : Fin 1024) (k : Fin 32) :
    k0_pay5 x0 x1 x3 x4 x2 x5 (ix2 e k)
      = Cert.Spec.hid (fun d => x0 (ix3 (0 : Fin 1) e d)) (fun d => x1 (ix3 (0 : Fin 1) (0 : Fin 1) d))
          (fun v => x2 (ix3 (0 : Fin 1) (0 : Fin 1) v)) (fun c k => x3 (ix3 (0 : Fin 1) c k))
          (fun k => x4 (ix3 (0 : Fin 1) (0 : Fin 1) k)) (fun v k => x5 (ix2 v k)) k := by
  unfold k0_pay5 Cert.Spec.hid
  rw [mulf_apply, tanh_apply, addf_apply, mm_apply dot_S1024x4_S4x32_S1024x32_1_0_0_1_n_n rfl, broadcastTo_1b_ab_apply, shapeCast_1ab_ab_apply,
    mm_apply dot_S1024x8_S8x32_S1024x32_1_0_0_1_n_n rfl]
  refine congrArg₂ (· * ·) (congrArg Ideal.tanh (congrArg₂ (· + ·) (Finset.sum_congr rfl fun c _ => ?_) rfl))
    (Finset.sum_congr rfl fun v _ => ?_)
  · rw [truncf_apply, truncf_apply, pay4_apply, shapeCast_1ab_ab_apply]
  · rw [truncf_apply, truncf_apply, exp_apply, mulf_apply, Cert.LibKeepdims.broadcastTo_a1_ab_apply, subf_apply,
      broadcast_apply, pay3_apply, broadcastTo_1b_ab_apply, shapeCast_1ab_ab_apply]
    show Ideal.exp ((Ideal.ofBits .f32 0x00000000#32 - _) * _) * _ = _
    rw [Ideal.ofBits_zero_f32, zero_sub]

/-- The first output block from the gated features and the scaled length, read at (u, e, f). -/
theorem pay7_apply (v33 : FVec Ideal S1024x32 .f32) (v35 : FVec Ideal S1024x1 .f32) (one : Ideal .f32)
    (x6 : Vec Ideal S32x16 .f32) (x7 : Vec Ideal S16x256 .f32) (u : Fin 1) (e : Fin 1024) (f : Fin 256) :
    k0_pay7 v33 v35 one x6 x7 (ix3 u e f)
      = ∑ j : Fin 16, ((∑ k : Fin 32, v33 (ix2 e k) * x6 (ix2 k j))
          * Scalar.select (Ideal.cmp .olt (v35 (ix2 e (0 : Fin 1))) one)
              ((Cert.Spec.w1 - v35 (ix2 e (0 : Fin 1))) * (Cert.Spec.w1 - v35 (ix2 e (0 : Fin 1)))
                * (Cert.Spec.w1 + Cert.Spec.w2 * v35 (ix2 e (0 : Fin 1)))) Cert.Spec.w0) * x7 (ix2 j f) := by
  unfold k0_pay7
  rw [shapeCast_ab_1ab_apply, mm_apply dot_S1024x16_S16x256_S1024x256_1_0_0_1_n_n rfl]
  refine Finset.sum_congr rfl fun j _ => ?_
  rw [truncf_apply, truncf_apply, mulf_apply, mm_apply dot_S1024x32_S32x16_S1024x16_1_0_0_1_n_n rfl,
    Cert.LibKeepdims.broadcastTo_a1_ab_apply, select_apply, cmpf_apply]
  rfl

/-- The rescaled features times the edge weights, read at (e, f). -/
theorem pay9_apply (v9 : FVec Ideal S1024x1 .f32) (v10 : FVec Ideal S1024x4 .f32) (x8 : Vec Ideal S4x256 .f32)
    (e : Fin 1024) (f : Fin 256) :
    k0_pay9 v9 v10 x8 (ix2 e f)
      = ∑ c : Fin 4, (Ideal.div (v10 (ix2 e c)) (v9 (ix2 e (0 : Fin 1))) * Ideal.log1p (v9 (ix2 e (0 : Fin 1))))
          * x8 (ix2 c f) := by
  unfold k0_pay9
  rw [mm_apply dot_S1024x4_S4x256_S1024x256_1_0_0_1_n_n rfl]
  refine Finset.sum_congr rfl fun c _ => ?_
  rw [truncf_apply, truncf_apply, mulf_apply, divf_apply, Cert.LibKeepdims.broadcastTo_a1_ab_apply,
    Cert.LibKeepdims.broadcastTo_a1_ab_apply, log1p_apply]

/-- The edge bias as a row repeated over the block, read at (e, f). -/
theorem pay10_apply (x9 : Vec Ideal S256 .f32) (e : Fin 1024) (f : Fin 256) :
    k0_pay10 x9 (ix2 e f) = x9 (ix1 f) := by
  unfold k0_pay10
  rw [broadcastTo_1b_ab_apply, shapeCast_a_1a_apply]

/-- The nucleus' row, read at (u, f). -/
theorem pay8_apply (x10 : Vec Ideal S1x1x256 .f32) (u : Fin 1) (f : Fin 256) :
    k0_pay8 x10 (ix2 u f) = x10 (ix3 (0 : Fin 1) u f) := by
  unfold k0_pay8
  rw [shapeCast_1ab_ab_apply]

/-- The second output block from its three summands, read at (u, e, f). -/
theorem pay1_apply (v69 : FVec Ideal S1x256 .f32) (v72 v74 : FVec Ideal S1024x256 .f32) (u : Fin 1) (e : Fin 1024)
    (f : Fin 256) :
    k0_pay1 v69 v72 v74 (ix3 u e f) = v72 (ix2 e f) + v74 (ix2 e f) + v69 (ix2 (0 : Fin 1) f) := by
  unfold k0_pay1
  rw [shapeCast_ab_1ab_apply, addf_apply, addf_apply, broadcastTo_1b_ab_apply]

/-! ## The whole-block rectangles sit at offset zero -/

theorem hz3 : (![0, 0, 0] : Fin 3 → ℕ) = fun _ => 0 := by
  funext a
  match a with
  | ⟨0, _⟩ => rfl
  | ⟨1, _⟩ => rfl
  | ⟨2, _⟩ => rfl
theorem hz2 : (![0, 0] : Fin 2 → ℕ) = fun _ => 0 := by
  funext a
  match a with
  | ⟨0, _⟩ => rfl
  | ⟨1, _⟩ => rfl
theorem hz1 : (![0] : Fin 1 → ℕ) = fun _ => 0 := by
  funext a
  match a with
  | ⟨0, _⟩ => rfl

/-! ## The two output blocks -/

/-- Entry (e, f) of the first output block. -/
theorem gamma_block (x0 : Vec Ideal S1x1024x3 .f32) (x1 : Vec Ideal S1x1x3 .f32) (x2 : Vec Ideal S1x1x8 .f32)
    (x3 : Vec Ideal S1x4x32 .f32) (x4 : Vec Ideal S1x1x32 .f32) (x5 : Vec Ideal S8x32 .f32) (x6 : Vec Ideal S32x16 .f32)
    (x7 : Vec Ideal S16x256 .f32) (x8 : Vec Ideal S4x256 .f32) (x9 : Vec Ideal S256 .f32) (x10 : Vec Ideal S1x1x256 .f32)
    (u : Fin 1) (e : Fin 1024) (f : Fin 256) :
    out0_11 (F := Ideal) x0 x1 x2 x3 x4 x5 x6 x7 x8 x9 x10 (ix3 u e f)
      = Cert.Spec.gamma (fun d => x0 (ix3 (0 : Fin 1) e d)) (fun d => x1 (ix3 (0 : Fin 1) (0 : Fin 1) d))
          (fun v => x2 (ix3 (0 : Fin 1) (0 : Fin 1) v)) (fun c k => x3 (ix3 (0 : Fin 1) c k))
          (fun k => x4 (ix3 (0 : Fin 1) (0 : Fin 1) k)) (fun v k => x5 (ix2 v k)) (fun k j => x6 (ix2 k j))
          (fun j f => x7 (ix2 j f)) f := by
  unfold out0_11
  rw [View.canon_unit_zero hz3]
  simp only [View.ld_unit_zero (S := S1x1024x3) hz3, View.ld_unit_zero (S := S1x1x3) hz3,
    View.ld_unit_zero (S := S1x4x32) hz3, View.ld_unit_zero (S := S1x1x32) hz3, View.ld_unit_zero (S := S1x1x8) hz3,
    View.ld_unit_zero (S := S8x32) hz2, View.ld_unit_zero (S := S32x16) hz2, View.ld_unit_zero (S := S16x256) hz2]
  rw [pay7_apply]
  unfold Cert.Spec.gamma Cert.Spec.beta Cert.Spec.cut
  refine Finset.sum_congr rfl fun j _ => ?_
  rw [pay6_apply]
  refine congrArg₂ (· * ·) (congrArg₂ (· * ·) (Finset.sum_congr rfl fun k _ => ?_) rfl) rfl
  rw [pay5_apply]

/-- Entry (e, f) of the second output block. -/
theorem edge_block (x0 : Vec Ideal S1x1024x3 .f32) (x1 : Vec Ideal S1x1x3 .f32) (x2 : Vec Ideal S1x1x8 .f32)
    (x3 : Vec Ideal S1x4x32 .f32) (x4 : Vec Ideal S1x1x32 .f32) (x5 : Vec Ideal S8x32 .f32) (x6 : Vec Ideal S32x16 .f32)
    (x7 : Vec Ideal S16x256 .f32) (x8 : Vec Ideal S4x256 .f32) (x9 : Vec Ideal S256 .f32) (x10 : Vec Ideal S1x1x256 .f32)
    (u : Fin 1) (e : Fin 1024) (f : Fin 256) :
    out0_12 (F := Ideal) x0 x1 x2 x3 x4 x5 x6 x7 x8 x9 x10 (ix3 u e f)
      = Cert.Spec.edge (fun d => x0 (ix3 (0 : Fin 1) e d)) (fun d => x1 (ix3 (0 : Fin 1) (0 : Fin 1) d))
          (fun c f => x8 (ix2 c f)) (fun f => x9 (ix1 f)) (fun f => x10 (ix3 (0 : Fin 1) (0 : Fin 1) f)) f := by
  unfold out0_12
  rw [View.canon_unit_zero hz3]
  simp only [View.ld_unit_zero (S := S1x1024x3) hz3, View.ld_unit_zero (S := S1x1x3) hz3,
    View.ld_unit_zero (S := S1x1x256) hz3, View.ld_unit_zero (S := S4x256) hz2, View.ld_unit_zero (S := S256) hz1]
  rw [pay1_apply, pay9_apply, pay10_apply, pay8_apply, pay3_apply]
  unfold Cert.Spec.edge Cert.Spec.inp
  refine congrArg₂ (· + ·) (congrArg₂ (· + ·) (Finset.sum_congr rfl fun c _ => ?_) rfl) rfl
  rw [pay4_apply]

end Cert.KernelIdeal.Rows

end
-- ==== Proof.RefRows.lean ====
/-
  The reference's two results, entry by entry: entry (n, e, f) of each is the layer's output row of neighbour e of
  nucleus n at f, as a function of the rows of the argument arrays.
-/
import proofs.«179704_j39161511804980_1_alg».proof.Proof.Gen.ReferenceIdeal.Read
import proofs.«179704_j39161511804980_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.Rows

open Cert.ReferenceIdeal Cert.ReferenceIdeal.Read Idealize.ShloMosaic Idealize.ShloMosaic.ValueIdx

/-! ## The rows of one (nucleus, neighbour) pair -/

/-- The position of neighbour e of nucleus n. -/
abbrev nb (x0 : (⟨S256x1024x3, .f32⟩ : BufTy).Contents (Elt Ideal)) (n : Fin 256) (e : Fin 1024) : Fin 3 → EReal :=
  fun d => x0 (ix3 n e d)

/-- The position of nucleus n. -/
abbrev nu (x1 : (⟨S256x3, .f32⟩ : BufTy).Contents (Elt Ideal)) (n : Fin 256) : Fin 3 → EReal :=
  fun d => x1 (ix2 n d)

section Geometry

variable (x0 : (⟨S256x1024x3, .f32⟩ : BufTy).Contents (Elt Ideal)) (x1 : (⟨S256x3, .f32⟩ : BufTy).Contents (Elt Ideal))

/-- The subtraction stage is the displacement. -/
theorem diff_at (n : Fin 256) (e : Fin 1024) (d : Fin 3) :
    val_main_v2 (F := Ideal) x0 x1 (ix3 n e d) = Cert.Spec.diff (nb x0 n e) (nu x1 n) d := by
  rw [val_main_v2_apply, val_main_v1_apply, val_main_v0_apply]
  have h : idx_main_v0 (idx_main_v1 (ix3 n e d)) = ix2 n d :=
    funext fun a => Fin.ext (by match a with | ⟨0, _⟩ => rfl | ⟨1, _⟩ => rfl)
  rw [h]; rfl

/-- The norm stage is the length. -/
theorem dist_at (n : Fin 256) (e : Fin 1024) (z : Fin 1) :
    val_main_v3 (F := Ideal) x0 x1 (ix3 n e z) = Cert.Spec.dist (nb x0 n e) (nu x1 n) := by
  rw [val_main_v3_apply, val_main_call0_v2_apply, val_main_call0_v1_apply, val_main_call0_cst_apply]
  rw [Ideal.hostUnary_sqrt_def, Ideal.ofBits_def, Ideal.ofBits_zero_f32, zero_add]
  unfold Cert.Spec.dist
  refine congrArg Ideal.sqrt (Finset.sum_congr rfl fun k _ => ?_)
  have h : idx_main_call0_v1 (idx_main_call0_v2 (ix3 n e z)) k = ix3 n e k :=
    funext fun a => Fin.ext (by match a with | ⟨0, _⟩ => rfl | ⟨1, _⟩ => rfl | ⟨2, _⟩ => rfl)
  rw [h, val_main_call0_v0_apply, diff_at]; rfl

/-- The joined stage is the four features. -/
theorem feats_at (n : Fin 256) (e : Fin 1024) (c : Fin 4) :
    val_main_v4 (F := Ideal) x0 x1 (ix3 n e c) = Cert.Spec.feats (nb x0 n e) (nu x1 n) c := by
  unfold val_main_v4
  refine Fin.cases ?_ (fun d => ?_) c
  · rw [concatenate_pair_apply_left (t := S256x1024x4) (s₁ := S256x1024x1) (s₂ := S256x1024x3) 2 _ _
      Cert.ReferenceIdeal.Gen.concatenates_S256x1024x1_S256x1024x3_S256x1024x4_d2
      (ix3 n e 0) rfl (ix3 n e 0) (fun b => by match b with | ⟨0, _⟩ => rfl | ⟨1, _⟩ => rfl | ⟨2, _⟩ => rfl)]
    exact dist_at x0 x1 n e 0
  · rw [concatenate_pair_apply_right (t := S256x1024x4) (s₁ := S256x1024x1) (s₂ := S256x1024x3) 2 _ _
      Cert.ReferenceIdeal.Gen.concatenates_S256x1024x1_S256x1024x3_S256x1024x4_d2
      (ix3 n e d.succ) rfl rfl (ix3 n e d)
      (fun b => by match b with | ⟨0, _⟩ => exact fun _ => rfl | ⟨1, _⟩ => exact fun _ => rfl | ⟨2, _⟩ => exact fun h => absurd rfl h)
      (by show d.val + 1 = d.succ.val; rw [Fin.val_succ])]
    exact diff_at x0 x1 n e d

end Geometry

section Hidden

variable (x0 : (⟨S256x1024x3, .f32⟩ : BufTy).Contents (Elt Ideal)) (x1 : (⟨S256x3, .f32⟩ : BufTy).Contents (Elt Ideal))
  (x2 : (⟨S256x8, .f32⟩ : BufTy).Contents (Elt Ideal)) (x3 : (⟨S256x4x32, .f32⟩ : BufTy).Contents (Elt Ideal))
  (x4 : (⟨S256x32, .f32⟩ : BufTy).Contents (Elt Ideal)) (x5 : (⟨S8x32, .f32⟩ : BufTy).Contents (Elt Ideal))

/-- The filter product: the features against the nucleus' own filter. -/
theorem filt_at (n : Fin 256) (e : Fin 1024) (k : Fin 32) :
    val_main_v5 (F := Ideal) x0 x1 x3 (ix3 n e k)
      = ∑ c : Fin 4, Cert.Spec.feats (nb x0 n e) (nu x1 n) c * x3 (ix3 n c k) := by
  rw [val_main_v5_apply]
  refine Finset.sum_congr rfl fun c _ => ?_
  have hl : lidx_main_v5 (ix3 n e k) c = ix3 n e c :=
    funext fun a => Fin.ext (by match a with | ⟨0, _⟩ => rfl | ⟨1, _⟩ => rfl | ⟨2, _⟩ => rfl)
  have hr : ridx_main_v5 (ix3 n e k) c = ix3 n c k :=
    funext fun a => Fin.ext (by match a with | ⟨0, _⟩ => rfl | ⟨1, _⟩ => rfl | ⟨2, _⟩ => rfl)
  rw [hl, hr, feats_at]

/-- The nucleus' bias, the same for every neighbour. -/
theorem bias_at (n : Fin 256) (e : Fin 1024) (k : Fin 32) :
    val_main_v7 (F := Ideal) x4 (ix3 n e k) = x4 (ix2 n k) := by
  rw [val_main_v7_apply, val_main_v6_apply]
  exact congrArg x4 (funext fun a => Fin.ext (by match a with | ⟨0, _⟩ => rfl | ⟨1, _⟩ => rfl))

/-- One envelope: the exponential of minus the length times the nucleus' scale. -/
theorem env_at (n : Fin 256) (e : Fin 1024) (v : Fin 8) :
    val_main_v15 (F := Ideal) x0 x1 x2 (ix3 n e v)
      = Ideal.exp (-Cert.Spec.dist (nb x0 n e) (nu x1 n) * x2 (ix2 n v)) := by
  rw [val_main_v15_apply, val_main_v14_apply, val_main_v12_apply, val_main_v10_apply, val_main_v13_apply,
    val_main_v11_apply]
  have h0 : idx_main_v12 (ix3 n e v) = ix3 n e 0 :=
    funext fun a => Fin.ext (by match a with | ⟨0, _⟩ => rfl | ⟨1, _⟩ => rfl | ⟨2, _⟩ => rfl)
  have h1 : idx_main_v11 (idx_main_v13 (ix3 n e v)) = ix2 n v :=
    funext fun a => Fin.ext (by match a with | ⟨0, _⟩ => rfl | ⟨1, _⟩ => rfl)
  rw [h0, h1, dist_at]; rfl

/-- The envelope sum. -/
theorem envsum_at (n : Fin 256) (e : Fin 1024) (k : Fin 32) :
    val_main_v16 (F := Ideal) x0 x1 x2 x5 (ix3 n e k)
      = ∑ v : Fin 8, Ideal.exp (-Cert.Spec.dist (nb x0 n e) (nu x1 n) * x2 (ix2 n v)) * x5 (ix2 v k) := by
  rw [val_main_v16_apply]
  refine Finset.sum_congr rfl fun v _ => ?_
  have hl : lidx_main_v16 (ix3 n e k) v = ix3 n e v :=
    funext fun a => Fin.ext (by match a with | ⟨0, _⟩ => rfl | ⟨1, _⟩ => rfl | ⟨2, _⟩ => rfl)
  have hr : ridx_main_v16 (ix3 n e k) v = ix2 v k :=
    funext fun a => Fin.ext (by match a with | ⟨0, _⟩ => rfl | ⟨1, _⟩ => rfl)
  rw [hl, hr, env_at]

/-- The gated stage is the filtered features gated by the envelopes. -/
theorem hid_at (n : Fin 256) (e : Fin 1024) (k : Fin 32) :
    val_main_v17 (F := Ideal) x0 x1 x2 x3 x4 x5 (ix3 n e k)
      = Cert.Spec.hid (nb x0 n e) (nu x1 n) (fun v => x2 (ix2 n v)) (fun c k => x3 (ix3 n c k))
          (fun k => x4 (ix2 n k)) (fun v k => x5 (ix2 v k)) k := by
  rw [val_main_v17_apply, val_main_v9_apply, val_main_v8_apply, filt_at, bias_at, envsum_at]
  rfl

end Hidden

section Cutoff

variable (x0 : (⟨S256x1024x3, .f32⟩ : BufTy).Contents (Elt Ideal)) (x1 : (⟨S256x3, .f32⟩ : BufTy).Contents (Elt Ideal))

/-- The length over the cut-off radius. -/
theorem xcut_at (n : Fin 256) (e : Fin 1024) (z : Fin 1) :
    val_main_v19 (F := Ideal) x0 x1 (ix3 n e z) = Cert.Spec.xcut (nb x0 n e) (nu x1 n) := by
  rw [val_main_v19_apply, val_main_v18_apply, val_main_cst_apply, dist_at]; rfl

/-- The selected stage is the smooth cut-off. -/
theorem cut_at (n : Fin 256) (e : Fin 1024) (z : Fin 1) :
    val_main_v30 (F := Ideal) x0 x1 (ix3 n e z) = Cert.Spec.cut (nb x0 n e) (nu x1 n) := by
  rw [val_main_v30_apply, val_main_v21_apply, val_main_v29_apply, val_main_v24_apply, val_main_v23_apply,
    val_main_v28_apply, val_main_v26_apply, val_main_v20_apply, val_main_v22_apply, val_main_v25_apply,
    val_main_v27_apply, val_main_call1_v1_apply, val_main_call1_v0_apply, val_main_cst_0_apply,
    val_main_cst_1_apply, val_main_cst_2_apply, val_main_cst_3_apply, val_main_cst_4_apply, xcut_at]
  rfl

end Cutoff

section First

variable (x0 : (⟨S256x1024x3, .f32⟩ : BufTy).Contents (Elt Ideal)) (x1 : (⟨S256x3, .f32⟩ : BufTy).Contents (Elt Ideal))
  (x2 : (⟨S256x8, .f32⟩ : BufTy).Contents (Elt Ideal)) (x3 : (⟨S256x4x32, .f32⟩ : BufTy).Contents (Elt Ideal))
  (x4 : (⟨S256x32, .f32⟩ : BufTy).Contents (Elt Ideal)) (x5 : (⟨S8x32, .f32⟩ : BufTy).Contents (Elt Ideal))
  (x6 : (⟨S32x16, .f32⟩ : BufTy).Contents (Elt Ideal)) (x7 : (⟨S16x256, .f32⟩ : BufTy).Contents (Elt Ideal))

/-- The gated features through W_beta, scaled by the cut-off. -/
theorem beta_at (n : Fin 256) (e : Fin 1024) (j : Fin 16) :
    val_main_v33 (F := Ideal) x0 x1 x2 x3 x4 x5 x6 (ix3 n e j)
      = Cert.Spec.beta (nb x0 n e) (nu x1 n) (fun v => x2 (ix2 n v)) (fun c k => x3 (ix3 n c k))
          (fun k => x4 (ix2 n k)) (fun v k => x5 (ix2 v k)) (fun k j => x6 (ix2 k j)) j := by
  rw [val_main_v33_apply, val_main_v31_apply, val_main_v32_apply]
  have h0 : idx_main_v32 (ix3 n e j) = ix3 n e 0 :=
    funext fun a => Fin.ext (by match a with | ⟨0, _⟩ => rfl | ⟨1, _⟩ => rfl | ⟨2, _⟩ => rfl)
  rw [h0, cut_at]
  unfold Cert.Spec.beta
  refine congrArg (· * _) (Finset.sum_congr rfl fun k _ => ?_)
  have hl : lidx_main_v31 (ix3 n e j) k = ix3 n e k :=
    funext fun a => Fin.ext (by match a with | ⟨0, _⟩ => rfl | ⟨1, _⟩ => rfl | ⟨2, _⟩ => rfl)
  have hr : ridx_main_v31 (ix3 n e j) k = ix2 k j :=
    funext fun a => Fin.ext (by match a with | ⟨0, _⟩ => rfl | ⟨1, _⟩ => rfl)
  rw [hl, hr, hid_at]

/-- The first result at (n, e, f). -/
theorem gamma_at (n : Fin 256) (e : Fin 1024) (f : Fin 256) :
    val_main_v34 (F := Ideal) x0 x1 x2 x3 x4 x5 x6 x7 (ix3 n e f)
      = Cert.Spec.gamma (nb x0 n e) (nu x1 n) (fun v => x2 (ix2 n v)) (fun c k => x3 (ix3 n c k))
          (fun k => x4 (ix2 n k)) (fun v k => x5 (ix2 v k)) (fun k j => x6 (ix2 k j)) (fun j f => x7 (ix2 j f)) f := by
  rw [val_main_v34_apply]
  unfold Cert.Spec.gamma
  refine Finset.sum_congr rfl fun j _ => ?_
  have hl : lidx_main_v34 (ix3 n e f) j = ix3 n e j :=
    funext fun a => Fin.ext (by match a with | ⟨0, _⟩ => rfl | ⟨1, _⟩ => rfl | ⟨2, _⟩ => rfl)
  have hr : ridx_main_v34 (ix3 n e f) j = ix2 j f :=
    funext fun a => Fin.ext (by match a with | ⟨0, _⟩ => rfl | ⟨1, _⟩ => rfl)
  rw [hl, hr, beta_at]

end First

section Second

variable (x0 : (⟨S256x1024x3, .f32⟩ : BufTy).Contents (Elt Ideal)) (x1 : (⟨S256x3, .f32⟩ : BufTy).Contents (Elt Ideal))
  (x8 : (⟨S4x256, .f32⟩ : BufTy).Contents (Elt Ideal)) (x9 : (⟨S256, .f32⟩ : BufTy).Contents (Elt Ideal))
  (x10 : (⟨S256x256, .f32⟩ : BufTy).Contents (Elt Ideal))

/-- The rescaled features. -/
theorem inp_at (n : Fin 256) (e : Fin 1024) (c : Fin 4) :
    val_main_v39 (F := Ideal) x0 x1 (ix3 n e c) = Cert.Spec.inp (nb x0 n e) (nu x1 n) c := by
  rw [val_main_v39_apply, val_main_v36_apply, val_main_v35_apply, val_main_v38_apply, val_main_v37_apply]
  have h0 : idx_main_v35 (ix3 n e c) = ix3 n e 0 :=
    funext fun a => Fin.ext (by match a with | ⟨0, _⟩ => rfl | ⟨1, _⟩ => rfl | ⟨2, _⟩ => rfl)
  have h1 : idx_main_v38 (ix3 n e c) = ix3 n e 0 :=
    funext fun a => Fin.ext (by match a with | ⟨0, _⟩ => rfl | ⟨1, _⟩ => rfl | ⟨2, _⟩ => rfl)
  rw [h0, h1, feats_at, dist_at]; rfl

/-- The second result at (n, e, f). -/
theorem edge_at (n : Fin 256) (e : Fin 1024) (f : Fin 256) :
    val_main_v46 (F := Ideal) x0 x1 x8 x9 x10 (ix3 n e f)
      = Cert.Spec.edge (nb x0 n e) (nu x1 n) (fun c f => x8 (ix2 c f)) (fun f => x9 (ix1 f))
          (fun f => x10 (ix2 n f)) f := by
  rw [val_main_v46_apply, val_main_v43_apply, val_main_v40_apply, val_main_v42_apply, val_main_v41_apply,
    val_main_v45_apply, val_main_v44_apply]
  have h9 : idx_main_v41 (idx_main_v42 (ix3 n e f)) = ix1 f :=
    funext fun a => Fin.ext (by match a with | ⟨0, _⟩ => rfl)
  have h10 : idx_main_v44 (idx_main_v45 (ix3 n e f)) = ix2 n f :=
    funext fun a => Fin.ext (by match a with | ⟨0, _⟩ => rfl | ⟨1, _⟩ => rfl)
  rw [h9, h10]
  unfold Cert.Spec.edge
  refine congrArg (· + _) (congrArg (· + _) (Finset.sum_congr rfl fun c _ => ?_))
  have hl : lidx_main_v40 (ix3 n e f) c = ix3 n e c :=
    funext fun a => Fin.ext (by match a with | ⟨0, _⟩ => rfl | ⟨1, _⟩ => rfl | ⟨2, _⟩ => rfl)
  have hr : ridx_main_v40 (ix3 n e f) c = ix2 c f :=
    funext fun a => Fin.ext (by match a with | ⟨0, _⟩ => rfl | ⟨1, _⟩ => rfl)
  rw [hl, hr, inp_at]

end Second

/-- The first result is the layer's first output, entry by entry. -/
theorem ref_gamma (x0 : (⟨S256x1024x3, .f32⟩ : BufTy).Contents (Elt Ideal)) (x1 : (⟨S256x3, .f32⟩ : BufTy).Contents (Elt Ideal))
    (x2 : (⟨S256x8, .f32⟩ : BufTy).Contents (Elt Ideal)) (x3 : (⟨S256x4x32, .f32⟩ : BufTy).Contents (Elt Ideal))
    (x4 : (⟨S256x32, .f32⟩ : BufTy).Contents (Elt Ideal)) (x5 : (⟨S8x32, .f32⟩ : BufTy).Contents (Elt Ideal))
    (x6 : (⟨S32x16, .f32⟩ : BufTy).Contents (Elt Ideal)) (x7 : (⟨S16x256, .f32⟩ : BufTy).Contents (Elt Ideal)) :
    val_main_v34 (F := Ideal) x0 x1 x2 x3 x4 x5 x6 x7 = Cert.Spec.gammaArr x0 x1 x2 x3 x4 x5 x6 x7 := by
  funext i
  obtain ⟨n, e, f, rfl⟩ : ∃ n e f, i = ix3 n e f := ⟨i 0, i 1, i 2, eq_ix3 i⟩
  exact gamma_at x0 x1 x2 x3 x4 x5 x6 x7 n e f

/-- The second result is the layer's second output, entry by entry. -/
theorem ref_edge (x0 : (⟨S256x1024x3, .f32⟩ : BufTy).Contents (Elt Ideal)) (x1 : (⟨S256x3, .f32⟩ : BufTy).Contents (Elt Ideal))
    (x8 : (⟨S4x256, .f32⟩ : BufTy).Contents (Elt Ideal)) (x9 : (⟨S256, .f32⟩ : BufTy).Contents (Elt Ideal))
    (x10 : (⟨S256x256, .f32⟩ : BufTy).Contents (Elt Ideal)) :
    val_main_v46 (F := Ideal) x0 x1 x8 x9 x10 = Cert.Spec.edgeArr x0 x1 x8 x9 x10 := by
  funext i
  obtain ⟨n, e, f, rfl⟩ : ∃ n e f, i = ix3 n e f := ⟨i 0, i 1, i 2, eq_ix3 i⟩
  exact edge_at x0 x1 x8 x9 x10 n e f

end Cert.ReferenceIdeal.Rows

end
-- ==== Proof.Final.lean ====
/-
  From blocks to arrays. Grid point t stages nucleus t: block t of every per-nucleus operand is that nucleus' slab, the
  shared weight matrices are staged whole, and the point writes rows (t, ·, ·) of both results. The four per-nucleus
  operands that the program first re-lays with a unit axis read, at (t, 0, d), the argument at (t, d). So what point t
  writes back is block t of the specification's arrays, the blocks tile both results, and after the run each result is
  the specification's array of the arguments.
-/
import proofs.«179704_j39161511804980_1_alg».proof.Proof.Gen.KernelIdeal.Value
import proofs.«179704_j39161511804980_1_alg».proof.Proof.KernelRows
import proofs.«179704_j39161511804980_1_alg».proof.Proof.Spec
import Idealize.ShloMosaic.Lib.Pipeline.Value
import Idealize.ShloMosaic.Lib.ValueIdx
import Idealize.ShloMosaic.Lib.StableHlo.Run

noncomputable section

namespace Cert.KernelIdeal.Final

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The nucleus a grid point stages. -/
def nuc (t : Fin cfg0.N) : Fin 256 := ⟨t.val, lt_of_lt_of_eq t.isLt N_0⟩

/-- The printed index maps, decided over the 256 points: a per-nucleus window's block index is (t, 0, 0), a shared
    window's is zero. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 1) = 0)
    ∧ (win0_10.index t (0 : Fin 3) = t.val ∧ win0_10.index t (1 : Fin 3) = 0 ∧ win0_10.index t (2 : Fin 3) = 0)
    ∧ (win0_11.index t (0 : Fin 3) = t.val ∧ win0_11.index t (1 : Fin 3) = 0 ∧ win0_11.index t (2 : Fin 3) = 0)
    ∧ (win0_12.index t (0 : Fin 3) = t.val ∧ win0_12.index t (1 : Fin 3) = 0 ∧ win0_12.index t (2 : Fin 3) = 0) :=
  (by decide +kernel : ∀ t : Fin grid0.N, _)

/-! ## The operands the program re-lays before the call -/

theorem V_v0 (c : Dev nD) : (V m c main_v0 : S256x1x3.Idx → EReal)
    = broadcastInDim S256x1x3 ![0, 2] bcast_S256x3_S256x1x3_0_2 (m ((c : Thread nD τ).loc main_arg1)) := by
  dsimp only [Gen.V, Gen.hostOps0]; after_results

theorem V_v0_apply (c : Dev nD) (n : Fin 256) (u : Fin 1) (d : Fin 3) :
    (V m c main_v0 : S256x1x3.Idx → EReal) (ix3 n u d) = m ((c : Thread nD τ).loc main_arg1) (ix2 n d) := by
  rw [V_v0]
  exact broadcastInDim_apply _ bcast_S256x3_S256x1x3_0_2 _ (ix3 n u d) (ix2 n d) (fun a => match a with
    | ⟨0, _⟩ => by show n.val = if (256 : Nat) = 1 then 0 else n.val; rw [if_neg (by decide)]
    | ⟨1, _⟩ => by show d.val = if (3 : Nat) = 1 then 0 else d.val; rw [if_neg (by decide)])

theorem V_v1 (c : Dev nD) : (V m c main_v1 : S256x1x8.Idx → EReal)
    = broadcastInDim S256x1x8 ![0, 2] bcast_S256x8_S256x1x8_0_2 (m ((c : Thread nD τ).loc main_arg2)) := by
  dsimp only [Gen.V, Gen.hostOps0]; after_results

theorem V_v1_apply (c : Dev nD) (n : Fin 256) (u : Fin 1) (d : Fin 8) :
    (V m c main_v1 : S256x1x8.Idx → EReal) (ix3 n u d) = m ((c : Thread nD τ).loc main_arg2) (ix2 n d) := by
  rw [V_v1]
  exact broadcastInDim_apply _ bcast_S256x8_S256x1x8_0_2 _ (ix3 n u d) (ix2 n d) (fun a => match a with
    | ⟨0, _⟩ => by show n.val = if (256 : Nat) = 1 then 0 else n.val; rw [if_neg (by decide)]
    | ⟨1, _⟩ => by show d.val = if (8 : Nat) = 1 then 0 else d.val; rw [if_neg (by decide)])

theorem V_v2 (c : Dev nD) : (V m c main_v2 : S256x1x32.Idx → EReal)
    = broadcastInDim S256x1x32 ![0, 2] bcast_S256x32_S256x1x32_0_2 (m ((c : Thread nD τ).loc main_arg4)) := by
  dsimp only [Gen.V, Gen.hostOps0]; after_results

theorem V_v2_apply (c : Dev nD) (n : Fin 256) (u : Fin 1) (d : Fin 32) :
    (V m c main_v2 : S256x1x32.Idx → EReal) (ix3 n u d) = m ((c : Thread nD τ).loc main_arg4) (ix2 n d) := by
  rw [V_v2]
  exact broadcastInDim_apply _ bcast_S256x32_S256x1x32_0_2 _ (ix3 n u d) (ix2 n d) (fun a => match a with
    | ⟨0, _⟩ => by show n.val = if (256 : Nat) = 1 then 0 else n.val; rw [if_neg (by decide)]
    | ⟨1, _⟩ => by show d.val = if (32 : Nat) = 1 then 0 else d.val; rw [if_neg (by decide)])

theorem V_v3 (c : Dev nD) : (V m c main_v3 : S256x1x256.Idx → EReal)
    = broadcastInDim S256x1x256 ![0, 2] bcast_S256x256_S256x1x256_0_2 (m ((c : Thread nD τ).loc main_arg10)) := by
  dsimp only [Gen.V, Gen.hostOps0]; after_results

theorem V_v3_apply (c : Dev nD) (n : Fin 256) (u : Fin 1) (d : Fin 256) :
    (V m c main_v3 : S256x1x256.Idx → EReal) (ix3 n u d) = m ((c : Thread nD τ).loc main_arg10) (ix2 n d) := by
  rw [V_v3]
  exact broadcastInDim_apply _ bcast_S256x256_S256x1x256_0_2 _ (ix3 n u d) (ix2 n d) (fun a => match a with
    | ⟨0, _⟩ => by show n.val = if (256 : Nat) = 1 then 0 else n.val; rw [if_neg (by decide)]
    | ⟨1, _⟩ => by show d.val = if (256 : Nat) = 1 then 0 else d.val; rw [if_neg (by decide)])

/-! ## Each staged block, read by coordinates -/

/-- Block t of the neighbour positions is nucleus t's slab. -/
theorem blk0 (c : Dev nD) (t : Fin cfg0.N) (u : Fin 1) (e : Fin 1024) (d : Fin 3) :
    (iblk m c 0 t : S1x1024x3.Idx → EReal) (ix3 u e d) = m ((c : Thread nD τ).loc main_arg0) (ix3 (nuc t) e d) := by
  obtain ⟨⟨a0, a1, a2⟩, -⟩ := idx_facts t
  show V m c main_arg0 (((cfg0.win 0).blk t).view.emb (ix3 u e d)) = _
  rw [V_main_arg0]
  refine congrArg _ (funext fun a => Fin.ext ?_)
  have hu : u.val = 0 := by omega
  match a with
  | ⟨0, _⟩ => show win0_0.index t (0 : Fin 3) * 1 + 1 * u.val = t.val; omega
  | ⟨1, _⟩ => show win0_0.index t (1 : Fin 3) * 1024 + 1 * e.val = e.val; omega
  | ⟨2, _⟩ => show win0_0.index t (2 : Fin 3) * 3 + 1 * d.val = d.val; omega

/-- Block t of the re-laid nucleus positions is nucleus t's position. -/
theorem blk1 (c : Dev nD) (t : Fin cfg0.N) (u v : Fin 1) (d : Fin 3) :
    (iblk m c 1 t : S1x1x3.Idx → EReal) (ix3 u v d) = m ((c : Thread nD τ).loc main_arg1) (ix2 (nuc t) d) := by
  obtain ⟨-, ⟨a0, a1, a2⟩, -⟩ := idx_facts t
  show V m c main_v0 (((cfg0.win 1).blk t).view.emb (ix3 u v d)) = _
  rw [← V_v0_apply m c (nuc t) (0 : Fin 1) d]
  refine congrArg _ (funext fun a => Fin.ext ?_)
  have hu : u.val = 0 := by omega
  have hv : v.val = 0 := by omega
  match a with
  | ⟨0, _⟩ => show win0_1.index t (0 : Fin 3) * 1 + 1 * u.val = t.val; omega
  | ⟨1, _⟩ => show win0_1.index t (1 : Fin 3) * 1 + 1 * v.val = 0; omega
  | ⟨2, _⟩ => show win0_1.index t (2 : Fin 3) * 3 + 1 * d.val = d.val; omega

/-- Block t of the re-laid envelope scales is nucleus t's scales. -/
theorem blk2 (c : Dev nD) (t : Fin cfg0.N) (u v : Fin 1) (d : Fin 8) :
    (iblk m c 2 t : S1x1x8.Idx → EReal) (ix3 u v d) = m ((c : Thread nD τ).loc main_arg2) (ix2 (nuc t) d) := by
  obtain ⟨-, -, ⟨a0, a1, a2⟩, -⟩ := idx_facts t
  show V m c main_v1 (((cfg0.win 2).blk t).view.emb (ix3 u v d)) = _
  rw [← V_v1_apply m c (nuc t) (0 : Fin 1) d]
  refine congrArg _ (funext fun a => Fin.ext ?_)
  have hu : u.val = 0 := by omega
  have hv : v.val = 0 := by omega
  match a with
  | ⟨0, _⟩ => show win0_2.index t (0 : Fin 3) * 1 + 1 * u.val = t.val; omega
  | ⟨1, _⟩ => show win0_2.index t (1 : Fin 3) * 1 + 1 * v.val = 0; omega
  | ⟨2, _⟩ => show win0_2.index t (2 : Fin 3) * 8 + 1 * d.val = d.val; omega

/-- Block t of the per-nucleus filters is nucleus t's filter. -/
theorem blk3 (c : Dev nD) (t : Fin cfg0.N) (u : Fin 1) (k : Fin 4) (d : Fin 32) :
    (iblk m c 3 t : S1x4x32.Idx → EReal) (ix3 u k d) = m ((c : Thread nD τ).loc main_arg3) (ix3 (nuc t) k d) := by
  obtain ⟨-, -, -, ⟨a0, a1, a2⟩, -⟩ := idx_facts t
  show V m c main_arg3 (((cfg0.win 3).blk t).view.emb (ix3 u k d)) = _
  rw [V_main_arg3]
  refine congrArg _ (funext fun a => Fin.ext ?_)
  have hu : u.val = 0 := by omega
  match a with
  | ⟨0, _⟩ => show win0_3.index t (0 : Fin 3) * 1 + 1 * u.val = t.val; omega
  | ⟨1, _⟩ => show win0_3.index t (1 : Fin 3) * 4 + 1 * k.val = k.val; omega
  | ⟨2, _⟩ => show win0_3.index t (2 : Fin 3) * 32 + 1 * d.val = d.val; omega

/-- Block t of the re-laid biases is nucleus t's bias. -/
theorem blk4 (c : Dev nD) (t : Fin cfg0.N) (u v : Fin 1) (d : Fin 32) :
    (iblk m c 4 t : S1x1x32.Idx → EReal) (ix3 u v d) = m ((c : Thread nD τ).loc main_arg4) (ix2 (nuc t) d) := by
  obtain ⟨-, -, -, -, ⟨a0, a1, a2⟩, -⟩ := idx_facts t
  show V m c main_v2 (((cfg0.win 4).blk t).view.emb (ix3 u v d)) = _
  rw [← V_v2_apply m c (nuc t) (0 : Fin 1) d]
  refine congrArg _ (funext fun a => Fin.ext ?_)
  have hu : u.val = 0 := by omega
  have hv : v.val = 0 := by omega
  match a with
  | ⟨0, _⟩ => show win0_4.index t (0 : Fin 3) * 1 + 1 * u.val = t.val; omega
  | ⟨1, _⟩ => show win0_4.index t (1 : Fin 3) * 1 + 1 * v.val = 0; omega
  | ⟨2, _⟩ => show win0_4.index t (2 : Fin 3) * 32 + 1 * d.val = d.val; omega

/-- The envelope weights are staged whole. -/
theorem blk5 (c : Dev nD) (t : Fin cfg0.N) (b : Fin 8) (d : Fin 32) :
    (iblk m c 5 t : S8x32.Idx → EReal) (ix2 b d) = m ((c : Thread nD τ).loc main_arg5) (ix2 b d) := by
  obtain ⟨-, -, -, -, -, ⟨a0, a1⟩, -⟩ := idx_facts t
  show V m c main_arg5 (((cfg0.win 5).blk t).view.emb (ix2 b d)) = _
  rw [V_main_arg5]
  refine congrArg _ (funext fun a => Fin.ext ?_)
  match a with
  | ⟨0, _⟩ => show win0_5.index t (0 : Fin 2) * 8 + 1 * b.val = b.val; omega
  | ⟨1, _⟩ => show win0_5.index t (1 : Fin 2) * 32 + 1 * d.val = d.val; omega

/-- W_beta is staged whole. -/
theorem blk6 (c : Dev nD) (t : Fin cfg0.N) (b : Fin 32) (d : Fin 16) :
    (iblk m c 6 t : S32x16.Idx → EReal) (ix2 b d) = m ((c : Thread nD τ).loc main_arg6) (ix2 b d) := by
  obtain ⟨-, -, -, -, -, -, ⟨a0, a1⟩, -⟩ := idx_facts t
  show V m c main_arg6 (((cfg0.win 6).blk t).view.emb (ix2 b d)) = _
  rw [V_main_arg6]
  refine congrArg _ (funext fun a => Fin.ext ?_)
  match a with
  | ⟨0, _⟩ => show win0_6.index t (0 : Fin 2) * 32 + 1 * b.val = b.val; omega
  | ⟨1, _⟩ => show win0_6.index t (1 : Fin 2) * 16 + 1 * d.val = d.val; omega

/-- W_gamma is staged whole. -/
theorem blk7 (c : Dev nD) (t : Fin cfg0.N) (b : Fin 16) (d : Fin 256) :
    (iblk m c 7 t : S16x256.Idx → EReal) (ix2 b d) = m ((c : Thread nD τ).loc main_arg7) (ix2 b d) := by
  obtain ⟨-, -, -, -, -, -, -, ⟨a0, a1⟩, -⟩ := idx_facts t
  show V m c main_arg7 (((cfg0.win 7).blk t).view.emb (ix2 b d)) = _
  rw [V_main_arg7]
  refine congrArg _ (funext fun a => Fin.ext ?_)
  match a with
  | ⟨0, _⟩ => show win0_7.index t (0 : Fin 2) * 16 + 1 * b.val = b.val; omega
  | ⟨1, _⟩ => show win0_7.index t (1 : Fin 2) * 256 + 1 * d.val = d.val; omega

/-- W_edge is staged whole. -/
theorem blk8 (c : Dev nD) (t : Fin cfg0.N) (b : Fin 4) (d : Fin 256) :
    (iblk m c 8 t : S4x256.Idx → EReal) (ix2 b d) = m ((c : Thread nD τ).loc main_arg8) (ix2 b d) := by
  obtain ⟨-, -, -, -, -, -, -, -, ⟨a0, a1⟩, -⟩ := idx_facts t
  show V m c main_arg8 (((cfg0.win 8).blk t).view.emb (ix2 b d)) = _
  rw [V_main_arg8]
  refine congrArg _ (funext fun a => Fin.ext ?_)
  match a with
  | ⟨0, _⟩ => show win0_8.index t (0 : Fin 2) * 4 + 1 * b.val = b.val; omega
  | ⟨1, _⟩ => show win0_8.index t (1 : Fin 2) * 256 + 1 * d.val = d.val; omega

/-- b_edge is staged whole. -/
theorem blk9 (c : Dev nD) (t : Fin cfg0.N) (d : Fin 256) :
    (iblk m c 9 t : S256.Idx → EReal) (ix1 d) = m ((c : Thread nD τ).loc main_arg9) (ix1 d) := by
  obtain ⟨-, -, -, -, -, -, -, -, -, a0, -⟩ := idx_facts t
  show V m c main_arg9 (((cfg0.win 9).blk t).view.emb (ix1 d)) = _
  rw [V_main_arg9]
  refine congrArg _ (funext fun a => Fin.ext ?_)
  match a with
  | ⟨0, _⟩ => show win0_9.index t (0 : Fin 1) * 256 + 1 * d.val = d.val; omega

/-- Block t of the re-laid nucleus embeddings is nucleus t's embedding. -/
theorem blk10 (c : Dev nD) (t : Fin cfg0.N) (u v : Fin 1) (d : Fin 256) :
    (iblk m c 10 t : S1x1x256.Idx → EReal) (ix3 u v d) = m ((c : Thread nD τ).loc main_arg10) (ix2 (nuc t) d) := by
  obtain ⟨-, -, -, -, -, -, -, -, -, -, ⟨a0, a1, a2⟩, -⟩ := idx_facts t
  show V m c main_v3 (((cfg0.win 10).blk t).view.emb (ix3 u v d)) = _
  rw [← V_v3_apply m c (nuc t) (0 : Fin 1) d]
  refine congrArg _ (funext fun a => Fin.ext ?_)
  have hu : u.val = 0 := by omega
  have hv : v.val = 0 := by omega
  match a with
  | ⟨0, _⟩ => show win0_10.index t (0 : Fin 3) * 1 + 1 * u.val = t.val; omega
  | ⟨1, _⟩ => show win0_10.index t (1 : Fin 3) * 1 + 1 * v.val = 0; omega
  | ⟨2, _⟩ => show win0_10.index t (2 : Fin 3) * 256 + 1 * d.val = d.val; omega

/-! ## What a point writes back, and the arrays after the run -/

/-- The two results as the specification's arrays of the arguments. -/
abbrev G11 (c : Dev nD) : S256x1024x256.Idx → EReal :=
  Cert.Spec.gammaArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

abbrev G12 (c : Dev nD) : S256x1024x256.Idx → EReal :=
  Cert.Spec.edgeArr (m ((c : Thread nD τ).loc main_arg0)) (m ((c : Thread nD τ).loc main_arg1)) (m ((c : Thread nD τ).loc main_arg8)) (m ((c : Thread nD τ).loc main_arg9)) (m ((c : Thread nD τ).loc main_arg10))

/-- An entry of the first output block, at any block index. -/
theorem block_gamma (x0 : Vec Ideal S1x1024x3 .f32) (x1 : Vec Ideal S1x1x3 .f32) (x2 : Vec Ideal S1x1x8 .f32)
    (x3 : Vec Ideal S1x4x32 .f32) (x4 : Vec Ideal S1x1x32 .f32) (x5 : Vec Ideal S8x32 .f32) (x6 : Vec Ideal S32x16 .f32)
    (x7 : Vec Ideal S16x256 .f32) (x8 : Vec Ideal S4x256 .f32) (x9 : Vec Ideal S256 .f32) (x10 : Vec Ideal S1x1x256 .f32)
    (j : S1x1024x256.Idx) :
    out0_11 (F := Ideal) x0 x1 x2 x3 x4 x5 x6 x7 x8 x9 x10 j
      = Cert.Spec.gamma (fun d => x0 (ix3 (0 : Fin 1) (j 1) d)) (fun d => x1 (ix3 (0 : Fin 1) (0 : Fin 1) d))
          (fun v => x2 (ix3 (0 : Fin 1) (0 : Fin 1) v)) (fun c k => x3 (ix3 (0 : Fin 1) c k))
          (fun k => x4 (ix3 (0 : Fin 1) (0 : Fin 1) k)) (fun v k => x5 (ix2 v k)) (fun k j => x6 (ix2 k j))
          (fun j f => x7 (ix2 j f)) (j 2) :=
  (congrArg (out0_11 (F := Ideal) x0 x1 x2 x3 x4 x5 x6 x7 x8 x9 x10) (eq_ix3 j)).trans
    (Cert.KernelIdeal.Rows.gamma_block x0 x1 x2 x3 x4 x5 x6 x7 x8 x9 x10 (j 0) (j 1) (j 2))

/-- An entry of the second output block, at any block index. -/
theorem block_edge (x0 : Vec Ideal S1x1024x3 .f32) (x1 : Vec Ideal S1x1x3 .f32) (x2 : Vec Ideal S1x1x8 .f32)
    (x3 : Vec Ideal S1x4x32 .f32) (x4 : Vec Ideal S1x1x32 .f32) (x5 : Vec Ideal S8x32 .f32) (x6 : Vec Ideal S32x16 .f32)
    (x7 : Vec Ideal S16x256 .f32) (x8 : Vec Ideal S4x256 .f32) (x9 : Vec Ideal S256 .f32) (x10 : Vec Ideal S1x1x256 .f32)
    (j : S1x1024x256.Idx) :
    out0_12 (F := Ideal) x0 x1 x2 x3 x4 x5 x6 x7 x8 x9 x10 j
      = Cert.Spec.edge (fun d => x0 (ix3 (0 : Fin 1) (j 1) d)) (fun d => x1 (ix3 (0 : Fin 1) (0 : Fin 1) d))
          (fun c f => x8 (ix2 c f)) (fun f => x9 (ix1 f)) (fun f => x10 (ix3 (0 : Fin 1) (0 : Fin 1) f)) (j 2) :=
  (congrArg (out0_12 (F := Ideal) x0 x1 x2 x3 x4 x5 x6 x7 x8 x9 x10) (eq_ix3 j)).trans
    (Cert.KernelIdeal.Rows.edge_block x0 x1 x2 x3 x4 x5 x6 x7 x8 x9 x10 (j 0) (j 1) (j 2))

/-- What point t writes back to the first result is block t of the specification's array. -/
theorem flushed11_eq (c : Dev nD) (t : Fin cfg0.N) :
    (dats m 0 c).flushed 11 t = ((cfg0.win 11).blk t).view.read (Elt Ideal) (G11 m c) := by
  obtain ⟨-, -, -, -, -, -, -, -, -, -, -, ⟨a0, a1, a2⟩, -⟩ := idx_facts t
  rw [Cert.KernelIdeal.Value.flushed11]
  refine funext fun (j : S1x1024x256.Idx) => ?_
  show out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) j = G11 m c (((cfg0.win 11).blk t).view.emb j)
  refine (block_gamma (iblk m c 0 t) (iblk m c 1 t) (iblk m c 2 t) (iblk m c 3 t) (iblk m c 4 t) (iblk m c 5 t) (iblk m c 6 t) (iblk m c 7 t) (iblk m c 8 t) (iblk m c 9 t) (iblk m c 10 t) j).trans ?_
  have hi : ((cfg0.win 11).blk t).view.emb j = ix3 (nuc t) (j 1) (j 2) := funext fun a => Fin.ext (by
    have hj : (j 0).val < 1 := (j 0).isLt
    match a with
    | ⟨0, _⟩ => show win0_11.index t (0 : Fin 3) * 1 + 1 * (j 0).val = t.val; omega
    | ⟨1, _⟩ => show win0_11.index t (1 : Fin 3) * 1024 + 1 * (j 1).val = (j 1).val; omega
    | ⟨2, _⟩ => show win0_11.index t (2 : Fin 3) * 256 + 1 * (j 2).val = (j 2).val; omega)
  rw [hi]
  simp only [blk0 m c t (0 : Fin 1) (j 1), blk1 m c t, blk2 m c t, blk3 m c t, blk4 m c t, blk5 m c t, blk6 m c t, blk7 m c t]
  rfl

/-- What point t writes back to the second result is block t of the specification's array. -/
theorem flushed12_eq (c : Dev nD) (t : Fin cfg0.N) :
    (dats m 0 c).flushed 12 t = ((cfg0.win 12).blk t).view.read (Elt Ideal) (G12 m c) := by
  obtain ⟨-, -, -, -, -, -, -, -, -, -, -, -, ⟨a0, a1, a2⟩⟩ := idx_facts t
  rw [Cert.KernelIdeal.Value.flushed12]
  refine funext fun (j : S1x1024x256.Idx) => ?_
  show out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) j = G12 m c (((cfg0.win 12).blk t).view.emb j)
  refine (block_edge (iblk m c 0 t) (iblk m c 1 t) (iblk m c 2 t) (iblk m c 3 t) (iblk m c 4 t) (iblk m c 5 t) (iblk m c 6 t) (iblk m c 7 t) (iblk m c 8 t) (iblk m c 9 t) (iblk m c 10 t) j).trans ?_
  have hi : ((cfg0.win 12).blk t).view.emb j = ix3 (nuc t) (j 1) (j 2) := funext fun a => Fin.ext (by
    have hj : (j 0).val < 1 := (j 0).isLt
    match a with
    | ⟨0, _⟩ => show win0_12.index t (0 : Fin 3) * 1 + 1 * (j 0).val = t.val; omega
    | ⟨1, _⟩ => show win0_12.index t (1 : Fin 3) * 1024 + 1 * (j 1).val = (j 1).val; omega
    | ⟨2, _⟩ => show win0_12.index t (2 : Fin 3) * 256 + 1 * (j 2).val = (j 2).val; omega)
  rw [hi]
  simp only [blk0 m c t (0 : Fin 1) (j 1), blk1 m c t, blk8 m c t, blk9 m c t, blk10 m c t]
  rfl

/-- An index of a result is in point t's block exactly when its nucleus is t's. -/
theorem mem_blk11 (t : Fin cfg0.N) (i : S256x1024x256.Idx) :
    i ∈ ((cfg0.win 11).blk t).view.set ↔ ∀ a : Fin 3, win0_11.index t a * S1x1024x256.size a ≤ (i a).val ∧ (i a).val < win0_11.index t a * S1x1024x256.size a + S1x1024x256.size a := by
  show i ∈ ((View.whole main_v4_0).slice (win0_11.rect t)).set ↔ _
  rw [View.set_slice_whole, Rect.mem_set_unit]
  exact Iff.rfl

theorem mem_blk12 (t : Fin cfg0.N) (i : S256x1024x256.Idx) :
    i ∈ ((cfg0.win 12).blk t).view.set ↔ ∀ a : Fin 3, win0_12.index t a * S1x1024x256.size a ≤ (i a).val ∧ (i a).val < win0_12.index t a * S1x1024x256.size a + S1x1024x256.size a := by
  show i ∈ ((View.whole main_v4_1).slice (win0_12.rect t)).set ↔ _
  rw [View.set_slice_whole, Rect.mem_set_unit]
  exact Iff.rfl

/-- The point that stages nucleus n. -/
def pt (n : Fin 256) : Fin cfg0.N := ⟨n.val, lt_of_lt_of_eq n.isLt N_0.symm⟩

/-- Every index of the first result lies in the block of the point that stages its nucleus. -/
theorem cover11 (i : S256x1024x256.Idx) :
    ∃ t : Fin cfg0.N, (cfg0.win 11).flush t = true ∧ i ∈ ((cfg0.win 11).blk t).view.set := by
  refine ⟨pt (i 0), flush0_11 _, ?_⟩
  obtain ⟨-, -, -, -, -, -, -, -, -, -, -, ⟨a0, a1, a2⟩, -⟩ := idx_facts (pt (i 0))
  have h0 : (pt (i 0)).val = (i 0).val := rfl
  have hi1 : (i 1).val < 1024 := (i 1).isLt
  have hi2 : (i 2).val < 256 := (i 2).isLt
  rw [mem_blk11]
  intro a
  match a with
  | ⟨0, _⟩ => show win0_11.index (pt (i 0)) (0 : Fin 3) * 1 ≤ (i 0).val ∧ (i 0).val < win0_11.index (pt (i 0)) (0 : Fin 3) * 1 + 1; omega
  | ⟨1, _⟩ => show win0_11.index (pt (i 0)) (1 : Fin 3) * 1024 ≤ (i 1).val ∧ (i 1).val < win0_11.index (pt (i 0)) (1 : Fin 3) * 1024 + 1024; omega
  | ⟨2, _⟩ => show win0_11.index (pt (i 0)) (2 : Fin 3) * 256 ≤ (i 2).val ∧ (i 2).val < win0_11.index (pt (i 0)) (2 : Fin 3) * 256 + 256; omega

theorem cover12 (i : S256x1024x256.Idx) :
    ∃ t : Fin cfg0.N, (cfg0.win 12).flush t = true ∧ i ∈ ((cfg0.win 12).blk t).view.set := by
  refine ⟨pt (i 0), flush0_12 _, ?_⟩
  obtain ⟨-, -, -, -, -, -, -, -, -, -, -, -, ⟨a0, a1, a2⟩⟩ := idx_facts (pt (i 0))
  have h0 : (pt (i 0)).val = (i 0).val := rfl
  have hi1 : (i 1).val < 1024 := (i 1).isLt
  have hi2 : (i 2).val < 256 := (i 2).isLt
  rw [mem_blk12]
  intro a
  match a with
  | ⟨0, _⟩ => show win0_12.index (pt (i 0)) (0 : Fin 3) * 1 ≤ (i 0).val ∧ (i 0).val < win0_12.index (pt (i 0)) (0 : Fin 3) * 1 + 1; omega
  | ⟨1, _⟩ => show win0_12.index (pt (i 0)) (1 : Fin 3) * 1024 ≤ (i 1).val ∧ (i 1).val < win0_12.index (pt (i 0)) (1 : Fin 3) * 1024 + 1024; omega
  | ⟨2, _⟩ => show win0_12.index (pt (i 0)) (2 : Fin 3) * 256 ≤ (i 2).val ∧ (i 2).val < win0_12.index (pt (i 0)) (2 : Fin 3) * 256 + 256; omega

/-- After the run the first result is the specification's array of the arguments, -/
theorem final11 (c : Dev nD) : (dats m 0 c).arrAt 11 cfg0.N = G11 m c :=
  (dats m 0 c).arrAt_eq_of_cover 11 (G11 m c) (fun t _ => flushed11_eq m c t) cover11

/-- and so is the second. -/
theorem final12 (c : Dev nD) : (dats m 0 c).arrAt 12 cfg0.N = G12 m c :=
  (dats m 0 c).arrAt_eq_of_cover 12 (G12 m c) (fun t _ => flushed12_eq m c t) cover12

/-- The kernel's run: both results end as the specification's arrays of the arguments, the arguments unchanged. -/
theorem run : θ_run defs (onTc (τ := τ) (main (F := Ideal))) ⟨m, fun _ => 0, ρ⟩ fun r => ∀ c : Dev nD,
      r.2.mem ((c : Thread nD τ).loc main_v4_0) = G11 m c
      ∧ r.2.mem ((c : Thread nD τ).loc main_v4_1) = G12 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final11 m c), (h c).2.1.trans (final12 m c), (h c).2.2⟩)
    (Cert.KernelIdeal.Value.run_blocks m ρ)

end Cert.KernelIdeal.Final

end
-- ==== Proof.lean ====
/-
  The certificate of the pair-feature layer. For every (nucleus, neighbour) pair both programs compute the same
  expressions of the same rows of the arguments (proof/Proof/Spec.lean): the displacement and its length, the four
  features, the nucleus' own filter under tanh gated by the envelope sum, the smooth cut-off, and the two projections.
  The kernel does it one nucleus per grid point on staged blocks (proof/Proof/KernelRows.lean reads a point's two
  output blocks entry by entry; proof/Proof/Final.lean tiles the results with them), the reference on whole arrays
  with the nucleus as a batch coordinate (proof/Proof/RefRows.lean). On the extended reals a block product into a zero
  accumulator and a batched contraction are the same finite sum, a change of float format changes nothing, and the
  kernel's 0 − dist is the reference's −dist; nothing else differs, so no finiteness of the inputs is used.
-/
import proofs.«179704_j39161511804980_1_alg».proof.Defs
import proofs.«179704_j39161511804980_1_alg».proof.Proof.Gen.Kernel
import proofs.«179704_j39161511804980_1_alg».proof.Proof.Gen.Kernel.Skeleton
import proofs.«179704_j39161511804980_1_alg».proof.Proof.Gen.Kernel.Launch
import proofs.«179704_j39161511804980_1_alg».proof.Proof.Gen.Kernel.Points
import proofs.«179704_j39161511804980_1_alg».proof.Proof.Gen.Kernel.Frame
import proofs.«179704_j39161511804980_1_alg».proof.Proof.Gen.KernelIdeal
import proofs.«179704_j39161511804980_1_alg».proof.Proof.Gen.KernelIdeal.Skeleton
import proofs.«179704_j39161511804980_1_alg».proof.Proof.Gen.KernelIdeal.Launch
import proofs.«179704_j39161511804980_1_alg».proof.Proof.Gen.KernelIdeal.Points
import proofs.«179704_j39161511804980_1_alg».proof.Proof.Gen.KernelIdeal.Frame
import proofs.«179704_j39161511804980_1_alg».proof.Proof.Gen.ReferenceIdeal
import proofs.«179704_j39161511804980_1_alg».proof.Proof.Gen.KernelIdeal.Value
import proofs.«179704_j39161511804980_1_alg».proof.Proof.Gen.ReferenceIdeal.Run
import proofs.«179704_j39161511804980_1_alg».proof.Proof.Gen.ReferenceIdeal.Read
import proofs.«179704_j39161511804980_1_alg».proof.Proof.Gen.Pre_finite_inputs
import proofs.«179704_j39161511804980_1_alg».proof.Proof.Spec
import proofs.«179704_j39161511804980_1_alg».proof.Proof.KernelRows
import proofs.«179704_j39161511804980_1_alg».proof.Proof.RefRows
import proofs.«179704_j39161511804980_1_alg».proof.Proof.Final
import Idealize.ShloMosaic.Adequacy
import Idealize.ShloMosaic.Init

noncomputable section

namespace Cert.Proof

open Idealize.ShloMosaic Idealize.ShloMosaic.TcCoe Idealize.SL.Sem

/-- The three programs run, fault nowhere and leave their arguments as they were. -/
theorem frame_k [Cert.Kernel.Facts] [Cert.Pre_finite_inputs.Facts] : Cert.frame_Kernel :=
  fun m ρ _ => Cert.Kernel.Gen.frame m ρ

theorem frame_ki [Cert.KernelIdeal.Facts] [Cert.Pre_finite_inputs.Facts] : Cert.frame_KernelIdeal :=
  fun m ρ _ => Cert.KernelIdeal.Gen.frame m ρ

theorem frame_ri [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- Both programs end with the specification's two arrays of arguments that agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.Final.G11 m c, fun c => Cert.KernelIdeal.Final.G12 m c,
    Cert.KernelIdeal.Final.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, -⟩ := hagree c
    rw [Cert.ReferenceIdeal.Read.val_main_v34_eq, Cert.ReferenceIdeal.Rows.ref_gamma, h0, h1, h2, h3, h4, h5, h6, h7]
  · obtain ⟨h0, h1, -, -, -, -, -, -, h8, h9, h10⟩ := hagree c
    refine (Cert.ReferenceIdeal.Read.val_main_v46_eq _ _ _ _ _).trans ?_
    rw [Cert.ReferenceIdeal.Rows.ref_edge, h0, h1, h8, h9, h10]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
